-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v26_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S800000 : Shape := ⟨1, ![800000]⟩
abbrev S256x64 : Shape := ⟨2, ![256, 64]⟩
abbrev S256 : Shape := ⟨1, ![256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S64x64 : Shape := ⟨2, ![64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_arg13 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg9 : FVec F S1x64 .f32) (main_arg10 : FVec F S1 .f32) (main_arg11 : FVec F S64x64 .f32) (main_arg12 : FVec F S64x64 .f32) (main_arg13 : FVec F S64 .f32) (main_v33 : IVec S_ 1) : IVec S_ 1 :=
  let main_v34 : FVec F S1x64 .f32 := Host.absf main_arg9
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_v48 main_v49 main_v50

def fn_part1 {F : FTy → Type} [FloatOps F] (main_arg6 : FVec F S128 .f32) (main_arg7 : FVec F S64x128 .f32) (main_arg8 : FVec F S64 .f32) (main_arg9 : FVec F S1x64 .f32) (main_arg10 : FVec F S1 .f32) (main_arg11 : FVec F S64x64 .f32) (main_arg12 : FVec F S64x64 .f32) (main_arg13 : FVec F S64 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x64 .f32) (main_arg1 : IVec S800000 32) (main_arg2 : IVec S800000 32) (main_arg3 : FVec F S256x64 .f32) (main_arg4 : FVec F S256 .f32) (main_arg5 : FVec F S128x256 .f32) (main_arg6 : FVec F S128 .f32) (main_arg7 : FVec F S64x128 .f32) (main_arg8 : FVec F S64 .f32) (main_arg9 : FVec F S1x64 .f32) (main_arg10 : FVec F S1 .f32) (main_arg11 : FVec F S64x64 .f32) (main_arg12 : FVec F S64x64 .f32) (main_arg13 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S256x64 .f32 := Host.absf main_arg3
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg5
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg6 main_arg7 main_arg8 main_arg9 main_arg10 main_arg11 main_arg12 main_arg13 main_v13 main_v16
-- ==== Kernel.lean ====
abbrev S100000x64 : Shape := ⟨2, ![100000, 64]⟩
abbrev S800000 : Shape := ⟨1, ![800000]⟩
abbrev S256x64 : Shape := ⟨2, ![256, 64]⟩
abbrev S256 : Shape := ⟨1, ![256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S64x64 : Shape := ⟨2, ![64, 64]⟩
abbrev S_ : Shape := ⟨0, ![]⟩
abbrev S800000x1 : Shape := ⟨2, ![800000, 1]⟩
abbrev S800000x64 : Shape := ⟨2, ![800000, 64]⟩
abbrev S64x256 : Shape := ⟨2, ![64, 256]⟩
abbrev S256x128 : Shape := ⟨2, ![256, 128]⟩
abbrev S128x64 : Shape := ⟨2, ![128, 64]⟩
abbrev S64x1 : Shape := ⟨2, ![64, 1]⟩
abbrev S1x256 : Shape := ⟨2, ![1, 256]⟩
abbrev S1x128 : Shape := ⟨2, ![1, 128]⟩
abbrev S1x1 : Shape := ⟨2, ![1, 1]⟩
abbrev S3200x64 : Shape := ⟨2, ![3200, 64]⟩
abbrev S3200x1 : Shape := ⟨2, ![3200, 1]⟩
abbrev S3200x256 : Shape := ⟨2, ![3200, 256]⟩
abbrev S3200x128 : Shape := ⟨2, ![3200, 128]⟩
abbrev S100000 : Shape := ⟨1, ![100000]⟩
abbrev S100000x1 : Shape := ⟨2, ![100000, 1]⟩
abbrev S4000x64 : Shape := ⟨2, ![4000, 64]⟩
abbrev S4000 : Shape := ⟨1, ![4000]⟩
abbrev S4000x1 : Shape := ⟨2, ![4000, 1]⟩

abbrev nBuf : Space → Nat
  | .hbm => 68
  | .vmem => 25
  | .smem => 0
  | _ => 0

abbrev bufTy : (tb : Table) → Fin (tcTables nBuf tb) → BufTy
  | .hbm, ⟨0, _⟩ => ⟨S100000x64, .f32⟩
  | .hbm, ⟨1, _⟩ => ⟨S800000, .i32⟩
  | .hbm, ⟨2, _⟩ => ⟨S800000, .i32⟩
  | .hbm, ⟨3, _⟩ => ⟨S256x64, .f32⟩
  | .hbm, ⟨4, _⟩ => ⟨S256, .f32⟩
  | .hbm, ⟨5, _⟩ => ⟨S128x256, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S1x64, .f32⟩
  | .hbm, ⟨10, _⟩ => ⟨S1, .f32⟩
  | .hbm, ⟨11, _⟩ => ⟨S64x64, .f32⟩
  | .hbm, ⟨12, _⟩ => ⟨S64x64, .f32⟩
  | .hbm, ⟨13, _⟩ => ⟨S64, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x64, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x64, .f32⟩
  | .hbm, ⟨32, _⟩ => ⟨S64x256, .f32⟩
  | .hbm, ⟨33, _⟩ => ⟨S64x256, .bf16⟩
  | .hbm, ⟨34, _⟩ => ⟨S256x128, .f32⟩
  | .hbm, ⟨35, _⟩ => ⟨S256x128, .bf16⟩
  | .hbm, ⟨36, _⟩ => ⟨S128x64, .f32⟩
  | .hbm, ⟨37, _⟩ => ⟨S128x64, .bf16⟩
  | .hbm, ⟨38, _⟩ => ⟨S64x1, .f32⟩
  | .hbm, ⟨39, _⟩ => ⟨S64x1, .bf16⟩
  | .hbm, ⟨40, _⟩ => ⟨S1x256, .f32⟩
  | .hbm, ⟨41, _⟩ => ⟨S1x128, .f32⟩
  | .hbm, ⟨42, _⟩ => ⟨S1x64, .f32⟩
  | .hbm, ⟨43, _⟩ => ⟨S1x1, .f32⟩
  | .hbm, ⟨44, _⟩ => ⟨S800000x64, .f32⟩
  | .hbm, ⟨45, _⟩ => ⟨S800000x1, .f32⟩
  | .hbm, ⟨46, _⟩ => ⟨S_, .f32⟩
  | .hbm, ⟨47, _⟩ => ⟨S100000x64, .f32⟩
  | .hbm, ⟨48, _⟩ => ⟨S800000x1, .i32⟩
  | .hbm, ⟨49, _⟩ => ⟨S100000x64, .f32⟩
  | .hbm, ⟨50, _⟩ => ⟨S_, .f32⟩
  | .hbm, ⟨51, _⟩ => ⟨S800000, .f32⟩
  | .hbm, ⟨52, _⟩ => ⟨S_, .f32⟩
  | .hbm, ⟨53, _⟩ => ⟨S100000, .f32⟩
  | .hbm, ⟨54, _⟩ => ⟨S800000x1, .i32⟩
  | .hbm, ⟨55, _⟩ => ⟨S100000, .f32⟩
  | .hbm, ⟨56, _⟩ => ⟨S_, .f32⟩
  | .hbm, ⟨57, _⟩ => ⟨S100000, .f32⟩
  | .hbm, ⟨58, _⟩ => ⟨S100000, .f32⟩
  | .hbm, ⟨59, _⟩ => ⟨S100000x1, .f32⟩
  | .hbm, ⟨60, _⟩ => ⟨S100000x64, .f32⟩
  | .hbm, ⟨61, _⟩ => ⟨S100000x64, .f32⟩
  | .hbm, ⟨62, _⟩ => ⟨S64x64, .f32⟩
  | .hbm, ⟨63, _⟩ => ⟨S64x64, .bf16⟩
  | .hbm, ⟨64, _⟩ => ⟨S64x64, .f32⟩
  | .hbm, ⟨65, _⟩ => ⟨S64x64, .bf16⟩
  | .hbm, ⟨66, _⟩ => ⟨S1x64, .f32⟩
  | .hbm, ⟨67, _⟩ => ⟨S100000x64, .f32⟩
  | .local _ .vmem, ⟨0, _⟩ => ⟨S3200x64, .f32⟩
  | .local _ .vmem, ⟨1, _⟩ => ⟨S3200x64, .f32⟩
  | .local _ .vmem, ⟨2, _⟩ => ⟨S3200x64, .f32⟩
  | .local _ .vmem, ⟨3, _⟩ => ⟨S3200x64, .f32⟩
  | .local _ .vmem, ⟨4, _⟩ => ⟨S64x256, .bf16⟩
  | .local _ .vmem, ⟨5, _⟩ => ⟨S1x256, .f32⟩
  | .local _ .vmem, ⟨6, _⟩ => ⟨S256x128, .bf16⟩
  | .local _ .vmem, ⟨7, _⟩ => ⟨S1x128, .f32⟩
  | .local _ .vmem, ⟨8, _⟩ => ⟨S128x64, .bf16⟩
  | .local _ .vmem, ⟨9, _⟩ => ⟨S1x64, .f32⟩
  | .local _ .vmem, ⟨10, _⟩ => ⟨S64x1, .bf16⟩
  | .local _ .vmem, ⟨11, _⟩ => ⟨S1x1, .f32⟩
  | .local _ .vmem, ⟨12, _⟩ => ⟨S3200x64, .f32⟩
  | .local _ .vmem, ⟨13, _⟩ => ⟨S3200x64, .f32⟩
  | .local _ .vmem, ⟨14, _⟩ => ⟨S3200x1, .f32⟩
  | .local _ .vmem, ⟨15, _⟩ => ⟨S3200x1, .f32⟩
  | .local _ .vmem, ⟨16, _⟩ => ⟨S4000x64, .f32⟩
  | .local _ .vmem, ⟨17, _⟩ => ⟨S4000x64, .f32⟩
  | .local _ .vmem, ⟨18, _⟩ => ⟨S4000x64, .f32⟩
  | .local _ .vmem, ⟨19, _⟩ => ⟨S4000x64, .f32⟩
  | .local _ .vmem, ⟨20, _⟩ => ⟨S64x64, .bf16⟩
  | .local _ .vmem, ⟨21, _⟩ => ⟨S64x64, .bf16⟩
  | .local _ .vmem, ⟨22, _⟩ => ⟨S1x64, .f32⟩
  | .local _ .vmem, ⟨23, _⟩ => ⟨S4000x64, .f32⟩
  | .local _ .vmem, ⟨24, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26_0 : Ref sig .tc := ⟨.hbm, 44, rfl⟩
abbrev main_v26_1 : Ref sig .tc := ⟨.hbm, 45, rfl⟩
abbrev main_cst : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg5_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem5_1 : DmaSem sig := 24

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S3200x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S3200x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  transposes_S256x64_S64x256_1_0 : S256x64.Transposes [1, 0] S64x256
  bitsLt_bf16_f32 : FTy.bits .bf16 < FTy.bits .f32
  transposes_S128x256_S256x128_1_0 : S128x256.Transposes [1, 0] S256x128
  transposes_S64x128_S128x64_1_0 : S64x128.Transposes [1, 0] S128x64
  transposes_S1x64_S64x1_1_0 : S1x64.Transposes [1, 0] S64x1
  shapeCasts_S256_S1x256 : S256.ShapeCasts S1x256
  shapeCasts_S128_S1x128 : S128.ShapeCasts S1x128
  shapeCasts_S64_S1x64 : S64.ShapeCasts S1x64
  shapeCasts_S1_S1x1 : S1.ShapeCasts S1x1
  inb_S3200x64_S3200x64_0_0 : ∀ a, (![0, 0] : Fin 2 → Nat) a + S3200x64.size a ≤ S3200x64.size a
  h_S3200x64 : 0 < S3200x64.numel
  shapeCasts_S3200x64_S3200x64 : S3200x64.ShapeCasts S3200x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S3200x256 : S1x256.Broadcasts S3200x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3200x128 : S1x128.Broadcasts S3200x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S3200x64 : S1x64.Broadcasts S3200x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S3200x1 : S1x1.Broadcasts S3200x1
  broadcasts_S3200x1_S3200x64 : S3200x1.Broadcasts S3200x64
  inb_S3200x1_S3200x1_0_0 : ∀ a, (![0, 0] : Fin 2 → Nat) a + S3200x1.size a ≤ S3200x1.size a
  h_S3200x1 : 0 < S3200x1.numel
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S4000x64 : S1x64.Broadcasts S4000x64
  reduces_S4000x64_S4000 : S4000x64.Reduces [1] S4000
  shapeCasts_S4000_S4000x1 : S4000.ShapeCasts S4000x1
  broadcasts_S4000x1_S4000x64 : S4000x1.Broadcasts S4000x64
  gather_S100000x64_S800000x1_S800000x64_1_0_n_n_0_1_164_wf : GatherDims.WF S100000x64 S800000x1 S800000x64 [1] [0] [] [0] [] 1 ![1, 64]
  dot_S3200x64_S64x256_S3200x256_1_0_0_1_n_n_wf : DotDims.WF S3200x64 S64x256 S3200x256 [1] [0] [0] [1] [] []
  dot_S3200x256_S256x128_S3200x128_1_0_0_1_n_n_wf : DotDims.WF S3200x256 S256x128 S3200x128 [1] [0] [0] [1] [] []
  dot_S3200x128_S128x64_S3200x64_1_0_0_1_n_n_wf : DotDims.WF S3200x128 S128x64 S3200x64 [1] [0] [0] [1] [] []
  dot_S3200x64_S64x1_S3200x1_1_0_0_1_n_n_wf : DotDims.WF S3200x64 S64x1 S3200x1 [1] [0] [0] [1] [] []
  scatter_S100000x64_S800000x1_S800000x64_1_0_0_1_wf : ScatterDims.WF S100000x64 S800000x1 S800000x64 [1] [0] [0] 1
  scatter_S100000_S800000x1_S800000_n_0_0_1_wf : ScatterDims.WF S100000 S800000x1 S800000 [] [0] [0] 1
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x64.size a ≤ S800000x64.size a
  hwx0_0 : ∀ i : grid0.Coords, EltTy.bits .f32 = 32 ∨ (Rect.block (s := S800000x64) S3200x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x64.size a ≤ S800000x64.size a
  hwx0_1 : ∀ i : grid0.Coords, EltTy.bits .f32 = 32 ∨ (Rect.block (s := S800000x64) S3200x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .bf16 = 32 ∨ (Rect.block (s := S64x256) S64x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .bf16 = 32 ∨ (Rect.block (s := S256x128) S256x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .bf16 = 32 ∨ (Rect.block (s := S128x64) S128x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x1.size a ≤ S64x1.size a
  hwx0_8 : ∀ i : grid0.Coords, EltTy.bits .bf16 = 32 ∨ (Rect.block (s := S64x1) S64x1.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S3200x64.size a ≤ S800000x64.size a
  hwx0_10 : ∀ i : grid0.Coords, EltTy.bits .f32 = 32 ∨ (Rect.block (s := S800000x64) S3200x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S3200x1.size a ≤ S800000x1.size a
  hwx0_11 : ∀ i : grid0.Coords, EltTy.bits .f32 = 32 ∨ (Rect.block (s := S800000x1) S3200x1.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .bf16 = 32 ∨ (Rect.block (s := S64x64) S64x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .bf16 = 32 ∨ (Rect.block (s := S64x64) S64x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .f32 = 32 ∨ (Rect.block (s := S100000x64) S4000x64.size (cc1_transform_5 i) (hinb1_5 i)).WholeWords (EltTy.packing .f32)

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def dot_S3200x64_S64x256_S3200x256_1_0_0_1_n_n : DotDims S3200x64 S64x256 S3200x256 where
  lhsContracting := [1]
  rhsContracting := [0]
  lhsNonContracting := [0]
  rhsNonContracting := [1]
  lhsBatch := []
  rhsBatch := []
  wf := dot_S3200x64_S64x256_S3200x256_1_0_0_1_n_n_wf
def dot_S3200x256_S256x128_S3200x128_1_0_0_1_n_n : DotDims S3200x256 S256x128 S3200x128 where
  lhsContracting := [1]
  rhsContracting := [0]
  lhsNonContracting := [0]
  rhsNonContracting := [1]
  lhsBatch := []
  rhsBatch := []
  wf := dot_S3200x256_S256x128_S3200x128_1_0_0_1_n_n_wf
def dot_S3200x128_S128x64_S3200x64_1_0_0_1_n_n : DotDims S3200x128 S128x64 S3200x64 where
  lhsContracting := [1]
  rhsContracting := [0]
  lhsNonContracting := [0]
  rhsNonContracting := [1]
  lhsBatch := []
  rhsBatch := []
  wf := dot_S3200x128_S128x64_S3200x64_1_0_0_1_n_n_wf
def dot_S3200x64_S64x1_S3200x1_1_0_0_1_n_n : DotDims S3200x64 S64x1 S3200x1 where
  lhsContracting := [1]
  rhsContracting := [0]
  lhsNonContracting := [0]
  rhsNonContracting := [1]
  lhsBatch := []
  rhsBatch := []
  wf := dot_S3200x64_S64x1_S3200x1_1_0_0_1_n_n_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_v6) S3200x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S3200x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v21) S64x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v25) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v26_0) S3200x64.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v26_1) S3200x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S800000 : Shape := ⟨1, ![800000]⟩
abbrev S256x64 : Shape := ⟨2, ![256, 64]⟩
abbrev S256 : Shape := ⟨1, ![256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S64x64 : Shape := ⟨2, ![64, 64]⟩
abbrev S_ : Shape := ⟨0, ![]⟩
abbrev S800000x1 : Shape := ⟨2, ![800000, 1]⟩
abbrev S800000x64 : Shape := ⟨2, ![800000, 64]⟩
abbrev S64x256 : Shape := ⟨2, ![64, 256]⟩
abbrev S800000x256 : Shape := ⟨2, ![800000, 256]⟩
abbrev S1x256 : Shape := ⟨2, ![1, 256]⟩
abbrev S256x128 : Shape := ⟨2, ![256, 128]⟩
abbrev S800000x128 : Shape := ⟨2, ![800000, 128]⟩
abbrev S1x128 : Shape := ⟨2, ![1, 128]⟩
abbrev S128x64 : Shape := ⟨2, ![128, 64]⟩
abbrev S64x1 : Shape := ⟨2, ![64, 1]⟩
abbrev S1x1 : Shape := ⟨2, ![1, 1]⟩
abbrev S100000 : Shape := ⟨1, ![100000]⟩
abbrev S100000x1 : Shape := ⟨2, ![100000, 1]⟩

abbrev nBuf : Space → Nat
  | .hbm => 134
  | .vmem => 0
  | .smem => 0
  | _ => 0

abbrev hbmTy0_0 (i : Nat) : BufTy := match i % 128 with
  | 0 => ⟨S100000x64, .f32⟩
  | 1 => ⟨S800000, .i32⟩
  | 2 => ⟨S800000, .i32⟩
  | 3 => ⟨S256x64, .f32⟩
  | 4 => ⟨S256, .f32⟩
  | 5 => ⟨S128x256, .f32⟩
  | 6 => ⟨S128, .f32⟩
  | 7 => ⟨S64x128, .f32⟩
  | 8 => ⟨S64, .f32⟩
  | 9 => ⟨S1x64, .f32⟩
  | 10 => ⟨S1, .f32⟩
  | 11 => ⟨S64x64, .f32⟩
  | 12 => ⟨S64x64, .f32⟩
  | 13 => ⟨S64, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x64, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x64, .f32⟩
  | 32 => ⟨S800000x64, .f32⟩
  | 33 => ⟨S64x256, .f32⟩
  | 34 => ⟨S800000x256, .f32⟩
  | 35 => ⟨S1x256, .f32⟩
  | 36 => ⟨S800000x256, .f32⟩
  | 37 => ⟨S800000x256, .f32⟩
  | 38 => ⟨S_, .f32⟩
  | 39 => ⟨S800000x256, .f32⟩
  | 40 => ⟨S800000x256, .i1⟩
  | 41 => ⟨S_, .f32⟩
  | 42 => ⟨S800000x256, .f32⟩
  | 43 => ⟨S800000x256, .f32⟩
  | 44 => ⟨S800000x256, .f32⟩
  | 45 => ⟨S256x128, .f32⟩
  | 46 => ⟨S800000x128, .f32⟩
  | 47 => ⟨S1x128, .f32⟩
  | 48 => ⟨S800000x128, .f32⟩
  | 49 => ⟨S800000x128, .f32⟩
  | 50 => ⟨S_, .f32⟩
  | 51 => ⟨S800000x128, .f32⟩
  | 52 => ⟨S800000x128, .i1⟩
  | 53 => ⟨S_, .f32⟩
  | 54 => ⟨S800000x128, .f32⟩
  | 55 => ⟨S800000x128, .f32⟩
  | 56 => ⟨S800000x128, .f32⟩
  | 57 => ⟨S128x64, .f32⟩
  | 58 => ⟨S800000x64, .f32⟩
  | 59 => ⟨S1x64, .f32⟩
  | 60 => ⟨S800000x64, .f32⟩
  | 61 => ⟨S800000x64, .f32⟩
  | 62 => ⟨S_, .f32⟩
  | 63 => ⟨S800000x64, .f32⟩
  | 64 => ⟨S800000x64, .i1⟩
  | 65 => ⟨S_, .f32⟩
  | 66 => ⟨S800000x64, .f32⟩
  | 67 => ⟨S800000x64, .f32⟩
  | 68 => ⟨S800000x64, .f32⟩
  | 69 => ⟨S64x1, .f32⟩
  | 70 => ⟨S800000x1, .f32⟩
  | 71 => ⟨S1x1, .f32⟩
  | 72 => ⟨S800000x1, .f32⟩
  | 73 => ⟨S800000x1, .f32⟩
  | 74 => ⟨S800000x1, .f32⟩
  | 75 => ⟨S800000x1, .f32⟩
  | 76 => ⟨S_, .f32⟩
  | 77 => ⟨S800000x1, .f32⟩
  | 78 => ⟨S800000x1, .f32⟩
  | 79 => ⟨S_, .f32⟩
  | 80 => ⟨S800000x1, .f32⟩
  | 81 => ⟨S800000x1, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000x64, .f32⟩
  | 91 => ⟨S800000x64, .f32⟩
  | 92 => ⟨S800000x64, .f32⟩
  | 93 => ⟨S_, .f32⟩
  | 94 => ⟨S100000x64, .f32⟩
  | 95 => ⟨S800000x1, .i32⟩
  | 96 => ⟨S100000x64, .f32⟩
  | 97 => ⟨S_, .f32⟩
  | 98 => ⟨S800000, .f32⟩
  | 99 => ⟨S_, .f32⟩
  | 100 => ⟨S100000, .f32⟩
  | 101 => ⟨S800000x1, .i32⟩
  | 102 => ⟨S100000, .f32⟩
  | 103 => ⟨S_, .f32⟩
  | 104 => ⟨S100000, .f32⟩
  | 105 => ⟨S100000, .f32⟩
  | 106 => ⟨S100000x1, .f32⟩
  | 107 => ⟨S100000x64, .f32⟩
  | 108 => ⟨S100000x64, .f32⟩
  | 109 => ⟨S64x64, .f32⟩
  | 110 => ⟨S100000x64, .f32⟩
  | 111 => ⟨S64x64, .f32⟩
  | 112 => ⟨S100000x64, .f32⟩
  | 113 => ⟨S100000x64, .f32⟩
  | 114 => ⟨S1x64, .f32⟩
  | 115 => ⟨S100000x64, .f32⟩
  | 116 => ⟨S100000x64, .f32⟩
  | 117 => ⟨S_, .f32⟩
  | 118 => ⟨S100000x64, .f32⟩
  | 119 => ⟨S100000x64, .i1⟩
  | 120 => ⟨S_, .f32⟩
  | 121 => ⟨S100000x64, .f32⟩
  | 122 => ⟨S100000x64, .f32⟩
  | 123 => ⟨S100000x64, .f32⟩
  | 124 => ⟨S100000x64, .f32⟩
  | 125 => ⟨S_, .f32⟩
  | 126 => ⟨S100000, .f32⟩
  | 127 => ⟨S100000x1, .f32⟩
  | _ => ⟨S100000x64, .f32⟩

abbrev hbmTy0_1 (i : Nat) : BufTy := match i % 128 with
  | 0 => ⟨S100000x1, .f32⟩
  | 1 => ⟨S_, .f32⟩
  | 2 => ⟨S100000x1, .f32⟩
  | 3 => ⟨S100000x1, .f32⟩
  | 4 => ⟨S100000x64, .f32⟩
  | 5 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_6 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_8 : Ref sig .tc := ⟨.hbm, 76, rfl⟩
abbrev main_v52 : Ref sig .tc := ⟨.hbm, 77, rfl⟩
abbrev main_v53 : Ref sig .tc := ⟨.hbm, 78, rfl⟩
abbrev main_cst_9 : Ref sig .tc := ⟨.hbm, 79, rfl⟩
abbrev main_v54 : Ref sig .tc := ⟨.hbm, 80, rfl⟩
abbrev main_v55 : Ref sig .tc := ⟨.hbm, 81, rfl⟩
abbrev main_c_10 : Ref sig .tc := ⟨.hbm, 82, rfl⟩
abbrev main_v56 : Ref sig .tc := ⟨.hbm, 83, rfl⟩
abbrev main_v57 : Ref sig .tc := ⟨.hbm, 84, rfl⟩
abbrev main_c_11 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_12 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_13 : Ref sig .tc := ⟨.hbm, 97, rfl⟩
abbrev main_v68 : Ref sig .tc := ⟨.hbm, 98, rfl⟩
abbrev main_cst_14 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_15 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_16 : Ref sig .tc := ⟨.hbm, 117, rfl⟩
abbrev main_v85 : Ref sig .tc := ⟨.hbm, 118, rfl⟩
abbrev main_v86 : Ref sig .tc := ⟨.hbm, 119, rfl⟩
abbrev main_cst_17 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_call4_v0 : Ref sig .tc := ⟨.hbm, 124, rfl⟩
abbrev main_call4_cst : Ref sig .tc := ⟨.hbm, 125, rfl⟩
abbrev main_call4_v1 : Ref sig .tc := ⟨.hbm, 126, rfl⟩
abbrev main_call4_v2 : Ref sig .tc := ⟨.hbm, 127, rfl⟩
abbrev main_v90 : Ref sig .tc := ⟨.hbm, 128, rfl⟩
abbrev main_cst_18 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  transposes_S256x64_S64x256_1_0 : S256x64.Transposes [1, 0] S64x256
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  bcast_S_S800000x256 : S_.BroadcastsInDim S800000x256 (![] : Fin 0 → Fin S800000x256.rank)
  transposes_S128x256_S256x128_1_0 : S128x256.Transposes [1, 0] S256x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  transposes_S64x128_S128x64_1_0 : S64x128.Transposes [1, 0] S128x64
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  transposes_S1x64_S64x1_1_0 : S1x64.Transposes [1, 0] S64x1
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  bcast_S800000x1_S800000x64_0_1 : S800000x1.BroadcastsInDim S800000x64 (![0, 1] : Fin 2 → Fin S800000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S_S100000x1 : S_.BroadcastsInDim S100000x1 (![] : Fin 0 → Fin S100000x1.rank)
  gather_S100000x64_S800000x1_S800000x64_1_0_n_n_0_1_164_wf : GatherDims.WF S100000x64 S800000x1 S800000x64 [1] [0] [] [0] [] 1 ![1, 64]
  dot_S800000x64_S64x256_S800000x256_1_0_0_1_n_n_wf : DotDims.WF S800000x64 S64x256 S800000x256 [1] [0] [0] [1] [] []
  dot_S800000x256_S256x128_S800000x128_1_0_0_1_n_n_wf : DotDims.WF S800000x256 S256x128 S800000x128 [1] [0] [0] [1] [] []
  dot_S800000x128_S128x64_S800000x64_1_0_0_1_n_n_wf : DotDims.WF S800000x128 S128x64 S800000x64 [1] [0] [0] [1] [] []
  dot_S800000x64_S64x1_S800000x1_1_0_0_1_n_n_wf : DotDims.WF S800000x64 S64x1 S800000x1 [1] [0] [0] [1] [] []
  scatter_S100000x64_S800000x1_S800000x64_1_0_0_1_wf : ScatterDims.WF S100000x64 S800000x1 S800000x64 [1] [0] [0] 1
  scatter_S100000_S800000x1_S800000_n_0_0_1_wf : ScatterDims.WF S100000 S800000x1 S800000 [] [0] [0] 1
  dot_S100000x64_S64x64_S100000x64_1_0_0_1_n_n_wf : DotDims.WF S100000x64 S64x64 S100000x64 [1] [0] [0] [1] [] []

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def dot_S800000x64_S64x256_S800000x256_1_0_0_1_n_n : DotDims S800000x64 S64x256 S800000x256 where
  lhsContracting := [1]
  rhsContracting := [0]
  lhsNonContracting := [0]
  rhsNonContracting := [1]
  lhsBatch := []
  rhsBatch := []
  wf := dot_S800000x64_S64x256_S800000x256_1_0_0_1_n_n_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def dot_S800000x64_S64x1_S800000x1_1_0_0_1_n_n : DotDims S800000x64 S64x1 S800000x1 where
  lhsContracting := [1]
  rhsContracting := [0]
  lhsNonContracting := [0]
  rhsNonContracting := [1]
  lhsBatch := []
  rhsBatch := []
  wf := dot_S800000x64_S64x1_S800000x1_1_0_0_1_n_n_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.BlockReads.lean ====
/- Which block each pipeline window holds at a grid point, and what that block reads of the window's array, for both
  kernel regions at whatever contents `V` the region is entered with. A row window (the gathered source and
  destination rows and the two outputs of the edge region; the node rows, the mean message rows and the output of the
  node region) is at block (t, 0) at point t, so row p of its block is row rows·t + p of its array; a parameter window
  (a weight matrix or a bias row) is at block (0, 0) at every point and its one block is its whole array.
-/
import proofs.«163080_j17454747091496_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen

variable (V : (c : Dev nD) → (b : Ref sig .tc) → Buf (Elt Ideal) ((c : Thread nD τ).loc b))

/-! ## The block index of each window at a point -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_10 : ∀ t : Fin cfg0.N, win0_10.index t (0 : Fin 2) = t.val ∧ win0_10.index t (1 : Fin 2) = 0 :=
  (by decide +kernel : ∀ t : Fin grid0.N, _)
theorem idx0_11 : ∀ t : Fin cfg0.N, win0_11.index t (0 : Fin 2) = t.val ∧ win0_11.index t (1 : Fin 2) = 0 :=
  (by decide +kernel : ∀ t : Fin grid0.N, _)
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_5 : ∀ t : Fin cfg1.N, win1_5.index t (0 : Fin 2) = t.val ∧ win1_5.index t (1 : Fin 2) = 0 :=
  (by decide +kernel : ∀ t : Fin grid1.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 2) = 0 ∧ win0_8.index t (1 : Fin 2) = 0 :=
  (by decide +kernel : ∀ t : Fin grid0.N, _)
theorem idx0_9 : ∀ t : Fin cfg0.N, win0_9.index t (0 : Fin 2) = 0 ∧ win0_9.index t (1 : Fin 2) = 0 :=
  (by decide +kernel : ∀ t : Fin grid0.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)

/-! ## What a block reads of its array -/

/-- Row p of window 0's block at point t is row 3200·t + p of its array. -/
theorem iblk0_0_at (c : Dev nD) (t : Fin cfg0.N) (p : Fin 3200) (k : Fin 64) (r : Fin 800000) (hr : r.val = t.val * 3200 + p.val) :
    (iblk0 V c 0 t : Vec Ideal S3200x64 .f32) (ix2 p k) = (V c main_v6 : S800000x64.Idx → EReal) (ix2 r k) := by
  obtain ⟨e0, e1⟩ := idx0_0 t
  show V c main_v6 (((cfg0.win 0).blk t).view.emb (ix2 p k)) = _
  refine congrArg _ (funext fun a => Fin.ext ?_)
  match a with
  | ⟨0, _⟩ => show win0_0.index t (0 : Fin 2) * 3200 + 1 * p.val = r.val; rw [e0, hr]; omega
  | ⟨1, _⟩ => show win0_0.index t (1 : Fin 2) * 64 + 1 * k.val = k.val; rw [e1]; omega

/-- Row p of window 1's block at point t is row 3200·t + p of its array. -/
theorem iblk0_1_at (c : Dev nD) (t : Fin cfg0.N) (p : Fin 3200) (k : Fin 64) (r : Fin 800000) (hr : r.val = t.val * 3200 + p.val) :
    (iblk0 V c 1 t : Vec Ideal S3200x64 .f32) (ix2 p k) = (V c main_v13 : S800000x64.Idx → EReal) (ix2 r k) := by
  obtain ⟨e0, e1⟩ := idx0_1 t
  show V c main_v13 (((cfg0.win 1).blk t).view.emb (ix2 p k)) = _
  refine congrArg _ (funext fun a => Fin.ext ?_)
  match a with
  | ⟨0, _⟩ => show win0_1.index t (0 : Fin 2) * 3200 + 1 * p.val = r.val; rw [e0, hr]; omega
  | ⟨1, _⟩ => show win0_1.index t (1 : Fin 2) * 64 + 1 * k.val = k.val; rw [e1]; omega

/-- Row p of window 0's block at point t is row 4000·t + p of its array. -/
theorem iblk1_0_at (c : Dev nD) (t : Fin cfg1.N) (p : Fin 4000) (k : Fin 64) (r : Fin 100000) (hr : r.val = t.val * 4000 + p.val) :
    (iblk1 V c 0 t : Vec Ideal S4000x64 .f32) (ix2 p k) = (V c main_arg0 : S100000x64.Idx → EReal) (ix2 r k) := by
  obtain ⟨e0, e1⟩ := idx1_0 t
  show V c main_arg0 (((cfg1.win 0).blk t).view.emb (ix2 p k)) = _
  refine congrArg _ (funext fun a => Fin.ext ?_)
  match a with
  | ⟨0, _⟩ => show win1_0.index t (0 : Fin 2) * 4000 + 1 * p.val = r.val; rw [e0, hr]; omega
  | ⟨1, _⟩ => show win1_0.index t (1 : Fin 2) * 64 + 1 * k.val = k.val; rw [e1]; omega

/-- Row p of window 1's block at point t is row 4000·t + p of its array. -/
theorem iblk1_1_at (c : Dev nD) (t : Fin cfg1.N) (p : Fin 4000) (k : Fin 64) (r : Fin 100000) (hr : r.val = t.val * 4000 + p.val) :
    (iblk1 V c 1 t : Vec Ideal S4000x64 .f32) (ix2 p k) = (V c main_v38 : S100000x64.Idx → EReal) (ix2 r k) := by
  obtain ⟨e0, e1⟩ := idx1_1 t
  show V c main_v38 (((cfg1.win 1).blk t).view.emb (ix2 p k)) = _
  refine congrArg _ (funext fun a => Fin.ext ?_)
  match a with
  | ⟨0, _⟩ => show win1_1.index t (0 : Fin 2) * 4000 + 1 * p.val = r.val; rw [e0, hr]; omega
  | ⟨1, _⟩ => show win1_1.index t (1 : Fin 2) * 64 + 1 * k.val = k.val; rw [e1]; omega

/-- Window 2's one block is its whole array. -/
theorem iblk0_2_eq (c : Dev nD) (t : Fin cfg0.N) :
    (iblk0 V c 2 t : Vec Ideal S64x256 .bf16) = (V c main_v15 : S64x256.Idx → EReal) := by
  obtain ⟨e0, e1⟩ := idx0_2 t
  funext y
  show V c main_v15 (((cfg0.win 2).blk t).view.emb y) = _
  refine congrArg _ (funext fun a => Fin.ext ?_)
  match a with
  | ⟨0, _⟩ => show win0_2.index t (0 : Fin 2) * 64 + 1 * (y 0).val = (y 0).val; rw [e0]; omega
  | ⟨1, _⟩ => show win0_2.index t (1 : Fin 2) * 256 + 1 * (y 1).val = (y 1).val; rw [e1]; omega

/-- Window 3's one block is its whole array. -/
theorem iblk0_3_eq (c : Dev nD) (t : Fin cfg0.N) :
    (iblk0 V c 3 t : Vec Ideal S1x256 .f32) = (V c main_v22 : S1x256.Idx → EReal) := by
  obtain ⟨e0, e1⟩ := idx0_3 t
  funext y
  show V c main_v22 (((cfg0.win 3).blk t).view.emb y) = _
  refine congrArg _ (funext fun a => Fin.ext ?_)
  match a with
  | ⟨0, _⟩ => show win0_3.index t (0 : Fin 2) * 1 + 1 * (y 0).val = (y 0).val; rw [e0]; omega
  | ⟨1, _⟩ => show win0_3.index t (1 : Fin 2) * 256 + 1 * (y 1).val = (y 1).val; rw [e1]; omega

/-- Window 4's one block is its whole array. -/
theorem iblk0_4_eq (c : Dev nD) (t : Fin cfg0.N) :
    (iblk0 V c 4 t : Vec Ideal S256x128 .bf16) = (V c main_v17 : S256x128.Idx → EReal) := by
  obtain ⟨e0, e1⟩ := idx0_4 t
  funext y
  show V c main_v17 (((cfg0.win 4).blk t).view.emb y) = _
  refine congrArg _ (funext fun a => Fin.ext ?_)
  match a with
  | ⟨0, _⟩ => show win0_4.index t (0 : Fin 2) * 256 + 1 * (y 0).val = (y 0).val; rw [e0]; omega
  | ⟨1, _⟩ => show win0_4.index t (1 : Fin 2) * 128 + 1 * (y 1).val = (y 1).val; rw [e1]; omega

/-- Window 5's one block is its whole array. -/
theorem iblk0_5_eq (c : Dev nD) (t : Fin cfg0.N) :
    (iblk0 V c 5 t : Vec Ideal S1x128 .f32) = (V c main_v23 : S1x128.Idx → EReal) := by
  obtain ⟨e0, e1⟩ := idx0_5 t
  funext y
  show V c main_v23 (((cfg0.win 5).blk t).view.emb y) = _
  refine congrArg _ (funext fun a => Fin.ext ?_)
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

/-- Window 6's one block is its whole array. -/
theorem iblk0_6_eq (c : Dev nD) (t : Fin cfg0.N) :
    (iblk0 V c 6 t : Vec Ideal S128x64 .bf16) = (V c main_v19 : S128x64.Idx → EReal) := by
  obtain ⟨e0, e1⟩ := idx0_6 t
  funext y
  show V c main_v19 (((cfg0.win 6).blk t).view.emb y) = _
  refine congrArg _ (funext fun a => Fin.ext ?_)
  match a with
  | ⟨0, _⟩ => show win0_6.index t (0 : Fin 2) * 128 + 1 * (y 0).val = (y 0).val; rw [e0]; omega
  | ⟨1, _⟩ => show win0_6.index t (1 : Fin 2) * 64 + 1 * (y 1).val = (y 1).val; rw [e1]; omega

/-- Window 7's one block is its whole array. -/
theorem iblk0_7_eq (c : Dev nD) (t : Fin cfg0.N) :
    (iblk0 V c 7 t : Vec Ideal S1x64 .f32) = (V c main_v24 : S1x64.Idx → EReal) := by
  obtain ⟨e0, e1⟩ := idx0_7 t
  funext y
  show V c main_v24 (((cfg0.win 7).blk t).view.emb y) = _
  refine congrArg _ (funext fun a => Fin.ext ?_)
  match a with
  | ⟨0, _⟩ => show win0_7.index t (0 : Fin 2) * 1 + 1 * (y 0).val = (y 0).val; rw [e0]; omega
  | ⟨1, _⟩ => show win0_7.index t (1 : Fin 2) * 64 + 1 * (y 1).val = (y 1).val; rw [e1]; omega

/-- Window 8's one block is its whole array. -/
theorem iblk0_8_eq (c : Dev nD) (t : Fin cfg0.N) :
    (iblk0 V c 8 t : Vec Ideal S64x1 .bf16) = (V c main_v21 : S64x1.Idx → EReal) := by
  obtain ⟨e0, e1⟩ := idx0_8 t
  funext y
  show V c main_v21 (((cfg0.win 8).blk t).view.emb y) = _
  refine congrArg _ (funext fun a => Fin.ext ?_)
  match a with
  | ⟨0, _⟩ => show win0_8.index t (0 : Fin 2) * 64 + 1 * (y 0).val = (y 0).val; rw [e0]; omega
  | ⟨1, _⟩ => show win0_8.index t (1 : Fin 2) * 1 + 1 * (y 1).val = (y 1).val; rw [e1]; omega

/-- Window 9's one block is its whole array. -/
theorem iblk0_9_eq (c : Dev nD) (t : Fin cfg0.N) :
    (iblk0 V c 9 t : Vec Ideal S1x1 .f32) = (V c main_v25 : S1x1.Idx → EReal) := by
  obtain ⟨e0, e1⟩ := idx0_9 t
  funext y
  show V c main_v25 (((cfg0.win 9).blk t).view.emb y) = _
  refine congrArg _ (funext fun a => Fin.ext ?_)
  match a with
  | ⟨0, _⟩ => show win0_9.index t (0 : Fin 2) * 1 + 1 * (y 0).val = (y 0).val; rw [e0]; omega
  | ⟨1, _⟩ => show win0_9.index t (1 : Fin 2) * 1 + 1 * (y 1).val = (y 1).val; rw [e1]; omega

/-- Window 2's one block is its whole array. -/
theorem iblk1_2_eq (c : Dev nD) (t : Fin cfg1.N) :
    (iblk1 V c 2 t : Vec Ideal S64x64 .bf16) = (V c main_v40 : S64x64.Idx → EReal) := by
  obtain ⟨e0, e1⟩ := idx1_2 t
  funext y
  show V c main_v40 (((cfg1.win 2).blk t).view.emb y) = _
  refine congrArg _ (funext fun a => Fin.ext ?_)
  match a with
  | ⟨0, _⟩ => show win1_2.index t (0 : Fin 2) * 64 + 1 * (y 0).val = (y 0).val; rw [e0]; omega
  | ⟨1, _⟩ => show win1_2.index t (1 : Fin 2) * 64 + 1 * (y 1).val = (y 1).val; rw [e1]; omega

/-- Window 3's one block is its whole array. -/
theorem iblk1_3_eq (c : Dev nD) (t : Fin cfg1.N) :
    (iblk1 V c 3 t : Vec Ideal S64x64 .bf16) = (V c main_v42 : S64x64.Idx → EReal) := by
  obtain ⟨e0, e1⟩ := idx1_3 t
  funext y
  show V c main_v42 (((cfg1.win 3).blk t).view.emb y) = _
  refine congrArg _ (funext fun a => Fin.ext ?_)
  match a with
  | ⟨0, _⟩ => show win1_3.index t (0 : Fin 2) * 64 + 1 * (y 0).val = (y 0).val; rw [e0]; omega
  | ⟨1, _⟩ => show win1_3.index t (1 : Fin 2) * 64 + 1 * (y 1).val = (y 1).val; rw [e1]; omega

/-- Window 4's one block is its whole array. -/
theorem iblk1_4_eq (c : Dev nD) (t : Fin cfg1.N) :
    (iblk1 V c 4 t : Vec Ideal S1x64 .f32) = (V c main_v43 : S1x64.Idx → EReal) := by
  obtain ⟨e0, e1⟩ := idx1_4 t
  funext y
  show V c main_v43 (((cfg1.win 4).blk t).view.emb y) = _
  refine congrArg _ (funext fun a => Fin.ext ?_)
  match a with
  | ⟨0, _⟩ => show win1_4.index t (0 : Fin 2) * 1 + 1 * (y 0).val = (y 0).val; rw [e0]; omega
  | ⟨1, _⟩ => show win1_4.index t (1 : Fin 2) * 64 + 1 * (y 1).val = (y 1).val; rw [e1]; omega

end Cert.KernelIdeal.Blocks

end
-- ==== Proof.Blocks.lean ====
/-
  From blocks to arrays, for both kernel regions, at whatever contents `V` the region is entered with.

  The edge region walks 250 points; at point t its two row windows hold rows 3200·t … 3200·t + 3199 of the two
  gathered arrays, its eight parameter windows hold their whole arrays, and it writes back block t of the message
  array and of the gate array. The node region walks 25 points over row blocks of 4000 in the same way. Since
  every output block is written once and the blocks tile their array, an output array ends holding a function G
  of the index as soon as each stored block is G read through the block: this module reduces that to a statement
  about one row of one block (`hG` below), which the modules on the two kernel bodies prove. (Which block a window
  holds at a point, and what it reads of its array, is the module BlockReads.)
-/
import proofs.«163080_j17454747091496_1_alg».proof.Proof.Gen.KernelIdeal.Frame
import proofs.«163080_j17454747091496_1_alg».proof.Proof.BlockReads
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

theorem lt0 (t : Fin cfg0.N) : t.val < 250 := lt_of_lt_of_eq t.isLt (show cfg0.N = 250 from N_0)
theorem lt1 (t : Fin cfg1.N) : t.val < 25 := lt_of_lt_of_eq t.isLt (show cfg1.N = 25 from N_1)

/-! ## The edge region: what it writes back, and the arrays it leaves -/

/-- The gates written back at point t are block t of `G`, if row p of the stored block is `G` at row 3200·t + p. -/
theorem flushed0_11_eq (c : Dev nD) (G : S800000x1.Idx → EReal)
    (hG : ∀ (t : Fin cfg0.N) (p : Fin 3200) (r : Fin 800000), r.val = t.val * 3200 + p.val →
      k0_pay1 (F := Ideal) (k0_pay4 (F := Ideal) (iblk0 V c 0 t) (iblk0 V c 1 t) (iblk0 V c 2 t) (iblk0 V c 3 t) (iblk0 V c 4 t) (iblk0 V c 5 t) (iblk0 V c 6 t)) (iblk0 V c 7 t) (iblk0 V c 8 t) (iblk0 V c 9 t) (ix2 p (0 : Fin 1)) = G (ix2 r (0 : Fin 1)))
    (t : Fin cfg0.N) :
    (dat0 V c).flushed 11 t = ((cfg0.win 11).blk t).view.read (Elt Ideal) G := by
  show (cfg0.win 11).cut (grid0.coords t) ((dat0 V c).after 11 t) = _
  rw [after0_11]
  unfold out0_11
  rw [View.canon_unit_zero hz]
  simp only [View.ld_unit_zero (S := S3200x64) hz, View.ld_unit_zero (S := S64x256) hz, View.ld_unit_zero (S := S1x256) hz,
    View.ld_unit_zero (S := S256x128) hz, View.ld_unit_zero (S := S1x128) hz, View.ld_unit_zero (S := S128x64) hz,
    View.ld_unit_zero (S := S1x64) hz, View.ld_unit_zero (S := S64x1) hz, View.ld_unit_zero (S := S1x1) hz]
  obtain ⟨e0, e1⟩ := idx0_11 t
  have ht := lt0 t
  funext j
  obtain ⟨p, u, rfl⟩ : ∃ (p : Fin 3200) (u : Fin 1), j = ix2 p u := ⟨j 0, j 1, eq_ix2 j⟩
  obtain rfl : u = 0 := Subsingleton.elim _ _
  show k0_pay1 (F := Ideal) (k0_pay4 (F := Ideal) (iblk0 V c 0 t) (iblk0 V c 1 t) (iblk0 V c 2 t) (iblk0 V c 3 t) (iblk0 V c 4 t) (iblk0 V c 5 t) (iblk0 V c 6 t)) (iblk0 V c 7 t) (iblk0 V c 8 t) (iblk0 V c 9 t) (ix2 p (0 : Fin 1))
      = G (((cfg0.win 11).blk t).view.emb (ix2 p (0 : Fin 1)))
  rw [hG t p ⟨t.val * 3200 + p.val, by have := p.isLt; omega⟩ rfl]
  refine congrArg G (funext fun a => Fin.ext ?_)
  match a with
  | ⟨0, _⟩ => show t.val * 3200 + p.val = win0_11.index t (0 : Fin 2) * 3200 + 1 * p.val; rw [e0]; omega
  | ⟨1, _⟩ => show (0 : ℕ) = win0_11.index t (1 : Fin 2) * 1 + 1 * 0; rw [e1]

/-- The messages written back at point t are block t of `G`, if row p of the stored block is `G` at row 3200·t + p. -/
theorem flushed0_10_eq (c : Dev nD) (G : S800000x64.Idx → EReal)
    (hG : ∀ (t : Fin cfg0.N) (p : Fin 3200) (q : Fin 64) (r : Fin 800000), r.val = t.val * 3200 + p.val →
      k0_pay2 (F := Ideal) (k0_pay3 (F := Ideal) (iblk0 V c 0 t)) (k0_pay4 (F := Ideal) (iblk0 V c 0 t) (iblk0 V c 1 t) (iblk0 V c 2 t) (iblk0 V c 3 t) (iblk0 V c 4 t) (iblk0 V c 5 t) (iblk0 V c 6 t)) (iblk0 V c 7 t) (iblk0 V c 8 t) (iblk0 V c 9 t) (ix2 p q) = G (ix2 r q))
    (t : Fin cfg0.N) :
    (dat0 V c).flushed 10 t = ((cfg0.win 10).blk t).view.read (Elt Ideal) G := by
  show (cfg0.win 10).cut (grid0.coords t) ((dat0 V c).after 10 t) = _
  rw [after0_10]
  unfold out0_10
  rw [View.canon_unit_zero hz]
  simp only [View.ld_unit_zero (S := S3200x64) hz, View.ld_unit_zero (S := S64x256) hz, View.ld_unit_zero (S := S1x256) hz,
    View.ld_unit_zero (S := S256x128) hz, View.ld_unit_zero (S := S1x128) hz, View.ld_unit_zero (S := S128x64) hz,
    View.ld_unit_zero (S := S1x64) hz, View.ld_unit_zero (S := S64x1) hz, View.ld_unit_zero (S := S1x1) hz]
  obtain ⟨e0, e1⟩ := idx0_10 t
  have ht := lt0 t
  funext j
  obtain ⟨p, q, rfl⟩ : ∃ (p : Fin 3200) (q : Fin 64), j = ix2 p q := ⟨j 0, j 1, eq_ix2 j⟩
  show k0_pay2 (F := Ideal) (k0_pay3 (F := Ideal) (iblk0 V c 0 t)) (k0_pay4 (F := Ideal) (iblk0 V c 0 t) (iblk0 V c 1 t) (iblk0 V c 2 t) (iblk0 V c 3 t) (iblk0 V c 4 t) (iblk0 V c 5 t) (iblk0 V c 6 t)) (iblk0 V c 7 t) (iblk0 V c 8 t) (iblk0 V c 9 t) (ix2 p q)
      = G (((cfg0.win 10).blk t).view.emb (ix2 p q))
  rw [hG t p q ⟨t.val * 3200 + p.val, by have := p.isLt; omega⟩ rfl]
  refine congrArg G (funext fun a => Fin.ext ?_)
  match a with
  | ⟨0, _⟩ => show t.val * 3200 + p.val = win0_10.index t (0 : Fin 2) * 3200 + 1 * p.val; rw [e0]; omega
  | ⟨1, _⟩ => show q.val = win0_10.index t (1 : Fin 2) * 64 + 1 * q.val; rw [e1]; omega

/-- An index of the gate array lies in point t's block iff its row does. -/
theorem mem_blk0_11 (t : Fin cfg0.N) (i : S800000x1.Idx) :
    i ∈ ((cfg0.win 11).blk t).view.set ↔ ∀ a : Fin 2, win0_11.index t a * S3200x1.size a ≤ (i a).val ∧ (i a).val < win0_11.index t a * S3200x1.size a + S3200x1.size a := by
  show i ∈ ((View.whole main_v26_1).slice (win0_11.rect t)).set ↔ _
  rw [View.set_slice_whole, Rect.mem_set_unit]
  exact Iff.rfl

/-- An index of the message array lies in point t's block iff its row does. -/
theorem mem_blk0_10 (t : Fin cfg0.N) (i : S800000x64.Idx) :
    i ∈ ((cfg0.win 10).blk t).view.set ↔ ∀ a : Fin 2, win0_10.index t a * S3200x64.size a ≤ (i a).val ∧ (i a).val < win0_10.index t a * S3200x64.size a + S3200x64.size a := by
  show i ∈ ((View.whole main_v26_0).slice (win0_10.rect t)).set ↔ _
  rw [View.set_slice_whole, Rect.mem_set_unit]
  exact Iff.rfl

/-- The gate array after the region: row r is covered by point r / 3200. -/
theorem final0_11 (c : Dev nD) (G : S800000x1.Idx → EReal)
    (hfl : ∀ t : Fin cfg0.N, (dat0 V c).flushed 11 t = ((cfg0.win 11).blk t).view.read (Elt Ideal) G) :
    (dat0 V c).arrAt 11 cfg0.N = G :=
  (dat0 V c).arrAt_eq_of_cover 11 G (fun t _ => hfl t) fun i => by
    have hi0 : (i 0).val < 800000 := (i 0).isLt
    have hi1 : (i 1).val < 1 := (i 1).isLt
    refine ⟨⟨(i 0).val / 3200, by rw [show cfg0.N = 250 from N_0]; omega⟩, flush0_11 _, ?_⟩
    rw [mem_blk0_11]
    obtain ⟨e0, e1⟩ := idx0_11 ⟨(i 0).val / 3200, by rw [show cfg0.N = 250 from N_0]; omega⟩
    intro a
    match a with
    | ⟨0, _⟩ => show win0_11.index _ (0 : Fin 2) * 3200 ≤ (i 0).val ∧ (i 0).val < win0_11.index _ (0 : Fin 2) * 3200 + 3200; rw [e0]; simp only; omega
    | ⟨1, _⟩ => show win0_11.index _ (1 : Fin 2) * 1 ≤ (i 1).val ∧ (i 1).val < win0_11.index _ (1 : Fin 2) * 1 + 1; rw [e1]; omega

/-- The message array after the region. -/
theorem final0_10 (c : Dev nD) (G : S800000x64.Idx → EReal)
    (hfl : ∀ t : Fin cfg0.N, (dat0 V c).flushed 10 t = ((cfg0.win 10).blk t).view.read (Elt Ideal) G) :
    (dat0 V c).arrAt 10 cfg0.N = G :=
  (dat0 V c).arrAt_eq_of_cover 10 G (fun t _ => hfl t) fun i => by
    have hi0 : (i 0).val < 800000 := (i 0).isLt
    have hi1 : (i 1).val < 64 := (i 1).isLt
    refine ⟨⟨(i 0).val / 3200, by rw [show cfg0.N = 250 from N_0]; omega⟩, flush0_10 _, ?_⟩
    rw [mem_blk0_10]
    obtain ⟨e0, e1⟩ := idx0_10 ⟨(i 0).val / 3200, by rw [show cfg0.N = 250 from N_0]; omega⟩
    intro a
    match a with
    | ⟨0, _⟩ => show win0_10.index _ (0 : Fin 2) * 3200 ≤ (i 0).val ∧ (i 0).val < win0_10.index _ (0 : Fin 2) * 3200 + 3200; rw [e0]; simp only; omega
    | ⟨1, _⟩ => show win0_10.index _ (1 : Fin 2) * 64 ≤ (i 1).val ∧ (i 1).val < win0_10.index _ (1 : Fin 2) * 64 + 64; rw [e1]; omega

/-! ## The node region -/

/-- The node rows written back at point t are block t of `G`, if row p of the stored block is `G` at row 4000·t + p. -/
theorem flushed1_5_eq (c : Dev nD) (G : S100000x64.Idx → EReal)
    (hG : ∀ (t : Fin cfg1.N) (p : Fin 4000) (q : Fin 64) (n : Fin 100000), n.val = t.val * 4000 + p.val →
      k1_pay1 (F := Ideal) (iblk1 V c 0 t) (iblk1 V c 1 t) (iblk1 V c 2 t) (iblk1 V c 3 t) (iblk1 V c 4 t) (ix2 p q) = G (ix2 n q))
    (t : Fin cfg1.N) :
    (dat1 V c).flushed 5 t = ((cfg1.win 5).blk t).view.read (Elt Ideal) G := by
  show (cfg1.win 5).cut (grid1.coords t) ((dat1 V c).after 5 t) = _
  rw [after1_5]
  unfold out1_5
  rw [View.canon_unit_zero hz]
  simp only [View.ld_unit_zero (S := S4000x64) hz, View.ld_unit_zero (S := S64x64) hz, View.ld_unit_zero (S := S1x64) hz]
  obtain ⟨e0, e1⟩ := idx1_5 t
  have ht := lt1 t
  funext j
  obtain ⟨p, q, rfl⟩ : ∃ (p : Fin 4000) (q : Fin 64), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
      = G (((cfg1.win 5).blk t).view.emb (ix2 p q))
  rw [hG t p q ⟨t.val * 4000 + p.val, by have := p.isLt; omega⟩ rfl]
  refine congrArg G (funext fun a => Fin.ext ?_)
  match a with
  | ⟨0, _⟩ => show t.val * 4000 + p.val = win1_5.index t (0 : Fin 2) * 4000 + 1 * p.val; rw [e0]; omega
  | ⟨1, _⟩ => show q.val = win1_5.index t (1 : Fin 2) * 64 + 1 * q.val; rw [e1]; omega

/-- An index of the node array lies in point t's block iff its row does. -/
theorem mem_blk1_5 (t : Fin cfg1.N) (i : S100000x64.Idx) :
    i ∈ ((cfg1.win 5).blk t).view.set ↔ ∀ a : Fin 2, win1_5.index t a * S4000x64.size a ≤ (i a).val ∧ (i a).val < win1_5.index t a * S4000x64.size a + S4000x64.size a := by
  show i ∈ ((View.whole main_v44).slice (win1_5.rect t)).set ↔ _
  rw [View.set_slice_whole, Rect.mem_set_unit]
  exact Iff.rfl

/-- The node array after the region: row n is covered by point n / 4000. -/
theorem final1_5 (c : Dev nD) (G : S100000x64.Idx → EReal)
    (hfl : ∀ t : Fin cfg1.N, (dat1 V c).flushed 5 t = ((cfg1.win 5).blk t).view.read (Elt Ideal) G) :
    (dat1 V c).arrAt 5 cfg1.N = G :=
  (dat1 V c).arrAt_eq_of_cover 5 G (fun t _ => hfl t) fun i => by
    have hi0 : (i 0).val < 100000 := (i 0).isLt
    have hi1 : (i 1).val < 64 := (i 1).isLt
    refine ⟨⟨(i 0).val / 4000, by rw [show cfg1.N = 25 from N_1]; omega⟩, flush1_5 _, ?_⟩
    rw [mem_blk1_5]
    obtain ⟨e0, e1⟩ := idx1_5 ⟨(i 0).val / 4000, by rw [show cfg1.N = 25 from N_1]; omega⟩
    intro a
    match a with
    | ⟨0, _⟩ => show win1_5.index _ (0 : Fin 2) * 4000 ≤ (i 0).val ∧ (i 0).val < win1_5.index _ (0 : Fin 2) * 4000 + 4000; rw [e0]; simp only; omega
    | ⟨1, _⟩ => show win1_5.index _ (1 : Fin 2) * 64 ≤ (i 1).val ∧ (i 1).val < win1_5.index _ (1 : Fin 2) * 64 + 64; rw [e1]; omega

end Cert.KernelIdeal.Blocks

end
-- ==== Proof.MatmulAt.lean ====
/- The kernel's five matrix products read at an index. Each `tpu.matmul` of the two kernel bodies contracts the
  left operand's second axis with the right operand's first and accumulates into a zero splat, so at the
  ideal instance its entry (p, q) is the plain sum  ∑ₖ a(p, k) · b(k, q)  over the contracted extent.
  One argument, stated once per product (the operand indices of a product are computed from its own record
  of dimension numbers).
-/
import proofs.«163080_j17454747091496_1_alg».proof.Proof.Gen.KernelIdeal
import Idealize.ShloMosaic.Lib.ValueIdx
import Idealize.ShloMosaic.PureOps.Ideal.Laws

noncomputable section

namespace Cert.KernelIdeal.MatmulAt

open Cert.KernelIdeal Cert.KernelIdeal.Gen Idealize.ShloMosaic Idealize.ShloMosaic.ValueIdx

variable {φ₁ φ₂ : FTy}

/-! ### the first edge layer's product: a row block of differences [3200, 64] against the first weight matrix laid [64, 256] -/

theorem lhs_edge1_0 (i : S3200x256.Idx) (q : dot_S3200x64_S64x256_S3200x256_1_0_0_1_n_n.contr.Idx) :
    (dot_S3200x64_S64x256_S3200x256_1_0_0_1_n_n.lhsIdx i q 0).val = (i 0).val := by
  unfold DotDims.lhsIdx
  rw [dif_neg (show ¬(0 : Fin S3200x64.rank) ∈ dot_S3200x64_S64x256_S3200x256_1_0_0_1_n_n.lhsBatch by decide), dif_pos (show (0 : Fin S3200x64.rank) ∈ dot_S3200x64_S64x256_S3200x256_1_0_0_1_n_n.lhsNonContracting by decide)]
  rfl
theorem lhs_edge1_1 (i : S3200x256.Idx) (q : dot_S3200x64_S64x256_S3200x256_1_0_0_1_n_n.contr.Idx) :
    (dot_S3200x64_S64x256_S3200x256_1_0_0_1_n_n.lhsIdx i q 1).val = (q ⟨0, by decide⟩).val :=
  dot_S3200x64_S64x256_S3200x256_1_0_0_1_n_n.lhsIdx_val_of_single rfl i q
theorem rhs_edge1_0 (i : S3200x256.Idx) (q : dot_S3200x64_S64x256_S3200x256_1_0_0_1_n_n.contr.Idx) :
    (dot_S3200x64_S64x256_S3200x256_1_0_0_1_n_n.rhsIdx i q 0).val = (q ⟨0, by decide⟩).val :=
  dot_S3200x64_S64x256_S3200x256_1_0_0_1_n_n.rhsIdx_val_of_single rfl i q
theorem rhs_edge1_1 (i : S3200x256.Idx) (q : dot_S3200x64_S64x256_S3200x256_1_0_0_1_n_n.contr.Idx) :
    (dot_S3200x64_S64x256_S3200x256_1_0_0_1_n_n.rhsIdx i q 1).val = (i 1).val := by
  unfold DotDims.rhsIdx
  rw [dif_neg (show ¬(1 : Fin S64x256.rank) ∈ dot_S3200x64_S64x256_S3200x256_1_0_0_1_n_n.rhsBatch by decide), dif_pos (show (1 : Fin S64x256.rank) ∈ dot_S3200x64_S64x256_S3200x256_1_0_0_1_n_n.rhsNonContracting by decide)]
  rfl

/-- Entry (p, q) of the product into a zero accumulator is the sum over the contracted axis of
    row p of the left operand times column q of the right one. -/
theorem matmul_edge1_at (a : FVec Ideal S3200x64 φ₁) (b : FVec Ideal S64x256 φ₂) (p : Fin 3200) (q : Fin 256) :
    matmul dot_S3200x64_S64x256_S3200x256_1_0_0_1_n_n none a b (constant (F := Ideal) S3200x256 .f32 0x00000000#32) (ix2 p q)
      = ∑ k : Fin 64, a (ix2 p k) * b (ix2 k q) := by
  show FloatOps.matmul dot_S3200x64_S64x256_S3200x256_1_0_0_1_n_n none a b (constant (F := Ideal) S3200x256 .f32 0x00000000#32) (ix2 p q) = _
  rw [Ideal.matmul_constant_zero_apply, ← Equiv.sum_comp (ValueIdx.contrEquiv1 dot_S3200x64_S64x256_S3200x256_1_0_0_1_n_n 64 rfl rfl).symm]
  refine Finset.sum_congr rfl fun k _ => ?_
  have hk := ValueIdx.contrEquiv1_symm_val dot_S3200x64_S64x256_S3200x256_1_0_0_1_n_n 64 rfl rfl k
  have el : dot_S3200x64_S64x256_S3200x256_1_0_0_1_n_n.lhsIdx (ix2 p q) ((ValueIdx.contrEquiv1 dot_S3200x64_S64x256_S3200x256_1_0_0_1_n_n 64 rfl rfl).symm k) = ix2 p k := funext fun a => Fin.ext (by
    match a with
    | ⟨0, _⟩ => exact lhs_edge1_0 _ _
    | ⟨1, _⟩ => exact (lhs_edge1_1 _ _).trans hk)
  have er : dot_S3200x64_S64x256_S3200x256_1_0_0_1_n_n.rhsIdx (ix2 p q) ((ValueIdx.contrEquiv1 dot_S3200x64_S64x256_S3200x256_1_0_0_1_n_n 64 rfl rfl).symm k) = ix2 k q := funext fun a => Fin.ext (by
    match a with
    | ⟨0, _⟩ => exact (rhs_edge1_0 _ _).trans hk
    | ⟨1, _⟩ => exact rhs_edge1_1 _ _)
  rw [el, er]

/-! ### the second edge layer's product: [3200, 256] against [256, 128] -/

theorem lhs_edge2_0 (i : S3200x128.Idx) (q : dot_S3200x256_S256x128_S3200x128_1_0_0_1_n_n.contr.Idx) :
    (dot_S3200x256_S256x128_S3200x128_1_0_0_1_n_n.lhsIdx i q 0).val = (i 0).val := by
  unfold DotDims.lhsIdx
  rw [dif_neg (show ¬(0 : Fin S3200x256.rank) ∈ dot_S3200x256_S256x128_S3200x128_1_0_0_1_n_n.lhsBatch by decide), dif_pos (show (0 : Fin S3200x256.rank) ∈ dot_S3200x256_S256x128_S3200x128_1_0_0_1_n_n.lhsNonContracting by decide)]
  rfl
theorem lhs_edge2_1 (i : S3200x128.Idx) (q : dot_S3200x256_S256x128_S3200x128_1_0_0_1_n_n.contr.Idx) :
    (dot_S3200x256_S256x128_S3200x128_1_0_0_1_n_n.lhsIdx i q 1).val = (q ⟨0, by decide⟩).val :=
  dot_S3200x256_S256x128_S3200x128_1_0_0_1_n_n.lhsIdx_val_of_single rfl i q
theorem rhs_edge2_0 (i : S3200x128.Idx) (q : dot_S3200x256_S256x128_S3200x128_1_0_0_1_n_n.contr.Idx) :
    (dot_S3200x256_S256x128_S3200x128_1_0_0_1_n_n.rhsIdx i q 0).val = (q ⟨0, by decide⟩).val :=
  dot_S3200x256_S256x128_S3200x128_1_0_0_1_n_n.rhsIdx_val_of_single rfl i q
theorem rhs_edge2_1 (i : S3200x128.Idx) (q : dot_S3200x256_S256x128_S3200x128_1_0_0_1_n_n.contr.Idx) :
    (dot_S3200x256_S256x128_S3200x128_1_0_0_1_n_n.rhsIdx i q 1).val = (i 1).val := by
  unfold DotDims.rhsIdx
  rw [dif_neg (show ¬(1 : Fin S256x128.rank) ∈ dot_S3200x256_S256x128_S3200x128_1_0_0_1_n_n.rhsBatch by decide), dif_pos (show (1 : Fin S256x128.rank) ∈ dot_S3200x256_S256x128_S3200x128_1_0_0_1_n_n.rhsNonContracting by decide)]
  rfl

/-- Entry (p, q) of the product into a zero accumulator is the sum over the contracted axis of
    row p of the left operand times column q of the right one. -/
theorem matmul_edge2_at (a : FVec Ideal S3200x256 φ₁) (b : FVec Ideal S256x128 φ₂) (p : Fin 3200) (q : Fin 128) :
    matmul dot_S3200x256_S256x128_S3200x128_1_0_0_1_n_n none a b (constant (F := Ideal) S3200x128 .f32 0x00000000#32) (ix2 p q)
      = ∑ k : Fin 256, a (ix2 p k) * b (ix2 k q) := by
  show FloatOps.matmul dot_S3200x256_S256x128_S3200x128_1_0_0_1_n_n none a b (constant (F := Ideal) S3200x128 .f32 0x00000000#32) (ix2 p q) = _
  rw [Ideal.matmul_constant_zero_apply, ← Equiv.sum_comp (ValueIdx.contrEquiv1 dot_S3200x256_S256x128_S3200x128_1_0_0_1_n_n 256 rfl rfl).symm]
  refine Finset.sum_congr rfl fun k _ => ?_
  have hk := ValueIdx.contrEquiv1_symm_val dot_S3200x256_S256x128_S3200x128_1_0_0_1_n_n 256 rfl rfl k
  have el : dot_S3200x256_S256x128_S3200x128_1_0_0_1_n_n.lhsIdx (ix2 p q) ((ValueIdx.contrEquiv1 dot_S3200x256_S256x128_S3200x128_1_0_0_1_n_n 256 rfl rfl).symm k) = ix2 p k := funext fun a => Fin.ext (by
    match a with
    | ⟨0, _⟩ => exact lhs_edge2_0 _ _
    | ⟨1, _⟩ => exact (lhs_edge2_1 _ _).trans hk)
  have er : dot_S3200x256_S256x128_S3200x128_1_0_0_1_n_n.rhsIdx (ix2 p q) ((ValueIdx.contrEquiv1 dot_S3200x256_S256x128_S3200x128_1_0_0_1_n_n 256 rfl rfl).symm k) = ix2 k q := funext fun a => Fin.ext (by
    match a with
    | ⟨0, _⟩ => exact (rhs_edge2_0 _ _).trans hk
    | ⟨1, _⟩ => exact rhs_edge2_1 _ _)
  rw [el, er]

/-! ### the third edge layer's product: [3200, 128] against [128, 64] -/

theorem lhs_edge3_0 (i : S3200x64.Idx) (q : dot_S3200x128_S128x64_S3200x64_1_0_0_1_n_n.contr.Idx) :
    (dot_S3200x128_S128x64_S3200x64_1_0_0_1_n_n.lhsIdx i q 0).val = (i 0).val := by
  unfold DotDims.lhsIdx
  rw [dif_neg (show ¬(0 : Fin S3200x128.rank) ∈ dot_S3200x128_S128x64_S3200x64_1_0_0_1_n_n.lhsBatch by decide), dif_pos (show (0 : Fin S3200x128.rank) ∈ dot_S3200x128_S128x64_S3200x64_1_0_0_1_n_n.lhsNonContracting by decide)]
  rfl
theorem lhs_edge3_1 (i : S3200x64.Idx) (q : dot_S3200x128_S128x64_S3200x64_1_0_0_1_n_n.contr.Idx) :
    (dot_S3200x128_S128x64_S3200x64_1_0_0_1_n_n.lhsIdx i q 1).val = (q ⟨0, by decide⟩).val :=
  dot_S3200x128_S128x64_S3200x64_1_0_0_1_n_n.lhsIdx_val_of_single rfl i q
theorem rhs_edge3_0 (i : S3200x64.Idx) (q : dot_S3200x128_S128x64_S3200x64_1_0_0_1_n_n.contr.Idx) :
    (dot_S3200x128_S128x64_S3200x64_1_0_0_1_n_n.rhsIdx i q 0).val = (q ⟨0, by decide⟩).val :=
  dot_S3200x128_S128x64_S3200x64_1_0_0_1_n_n.rhsIdx_val_of_single rfl i q
theorem rhs_edge3_1 (i : S3200x64.Idx) (q : dot_S3200x128_S128x64_S3200x64_1_0_0_1_n_n.contr.Idx) :
    (dot_S3200x128_S128x64_S3200x64_1_0_0_1_n_n.rhsIdx i q 1).val = (i 1).val := by
  unfold DotDims.rhsIdx
  rw [dif_neg (show ¬(1 : Fin S128x64.rank) ∈ dot_S3200x128_S128x64_S3200x64_1_0_0_1_n_n.rhsBatch by decide), dif_pos (show (1 : Fin S128x64.rank) ∈ dot_S3200x128_S128x64_S3200x64_1_0_0_1_n_n.rhsNonContracting by decide)]
  rfl

/-- Entry (p, q) of the product into a zero accumulator is the sum over the contracted axis of
    row p of the left operand times column q of the right one. -/
theorem matmul_edge3_at (a : FVec Ideal S3200x128 φ₁) (b : FVec Ideal S128x64 φ₂) (p : Fin 3200) (q : Fin 64) :
    matmul dot_S3200x128_S128x64_S3200x64_1_0_0_1_n_n none a b (constant (F := Ideal) S3200x64 .f32 0x00000000#32) (ix2 p q)
      = ∑ k : Fin 128, a (ix2 p k) * b (ix2 k q) := by
  show FloatOps.matmul dot_S3200x128_S128x64_S3200x64_1_0_0_1_n_n none a b (constant (F := Ideal) S3200x64 .f32 0x00000000#32) (ix2 p q) = _
  rw [Ideal.matmul_constant_zero_apply, ← Equiv.sum_comp (ValueIdx.contrEquiv1 dot_S3200x128_S128x64_S3200x64_1_0_0_1_n_n 128 rfl rfl).symm]
  refine Finset.sum_congr rfl fun k _ => ?_
  have hk := ValueIdx.contrEquiv1_symm_val dot_S3200x128_S128x64_S3200x64_1_0_0_1_n_n 128 rfl rfl k
  have el : dot_S3200x128_S128x64_S3200x64_1_0_0_1_n_n.lhsIdx (ix2 p q) ((ValueIdx.contrEquiv1 dot_S3200x128_S128x64_S3200x64_1_0_0_1_n_n 128 rfl rfl).symm k) = ix2 p k := funext fun a => Fin.ext (by
    match a with
    | ⟨0, _⟩ => exact lhs_edge3_0 _ _
    | ⟨1, _⟩ => exact (lhs_edge3_1 _ _).trans hk)
  have er : dot_S3200x128_S128x64_S3200x64_1_0_0_1_n_n.rhsIdx (ix2 p q) ((ValueIdx.contrEquiv1 dot_S3200x128_S128x64_S3200x64_1_0_0_1_n_n 128 rfl rfl).symm k) = ix2 k q := funext fun a => Fin.ext (by
    match a with
    | ⟨0, _⟩ => exact (rhs_edge3_0 _ _).trans hk
    | ⟨1, _⟩ => exact rhs_edge3_1 _ _)
  rw [el, er]

/-! ### the gate's product: [3200, 64] against the column [64, 1] -/

theorem lhs_edge4_0 (i : S3200x1.Idx) (q : dot_S3200x64_S64x1_S3200x1_1_0_0_1_n_n.contr.Idx) :
    (dot_S3200x64_S64x1_S3200x1_1_0_0_1_n_n.lhsIdx i q 0).val = (i 0).val := by
  unfold DotDims.lhsIdx
  rw [dif_neg (show ¬(0 : Fin S3200x64.rank) ∈ dot_S3200x64_S64x1_S3200x1_1_0_0_1_n_n.lhsBatch by decide), dif_pos (show (0 : Fin S3200x64.rank) ∈ dot_S3200x64_S64x1_S3200x1_1_0_0_1_n_n.lhsNonContracting by decide)]
  rfl
theorem lhs_edge4_1 (i : S3200x1.Idx) (q : dot_S3200x64_S64x1_S3200x1_1_0_0_1_n_n.contr.Idx) :
    (dot_S3200x64_S64x1_S3200x1_1_0_0_1_n_n.lhsIdx i q 1).val = (q ⟨0, by decide⟩).val :=
  dot_S3200x64_S64x1_S3200x1_1_0_0_1_n_n.lhsIdx_val_of_single rfl i q
theorem rhs_edge4_0 (i : S3200x1.Idx) (q : dot_S3200x64_S64x1_S3200x1_1_0_0_1_n_n.contr.Idx) :
    (dot_S3200x64_S64x1_S3200x1_1_0_0_1_n_n.rhsIdx i q 0).val = (q ⟨0, by decide⟩).val :=
  dot_S3200x64_S64x1_S3200x1_1_0_0_1_n_n.rhsIdx_val_of_single rfl i q
theorem rhs_edge4_1 (i : S3200x1.Idx) (q : dot_S3200x64_S64x1_S3200x1_1_0_0_1_n_n.contr.Idx) :
    (dot_S3200x64_S64x1_S3200x1_1_0_0_1_n_n.rhsIdx i q 1).val = (i 1).val := by
  unfold DotDims.rhsIdx
  rw [dif_neg (show ¬(1 : Fin S64x1.rank) ∈ dot_S3200x64_S64x1_S3200x1_1_0_0_1_n_n.rhsBatch by decide), dif_pos (show (1 : Fin S64x1.rank) ∈ dot_S3200x64_S64x1_S3200x1_1_0_0_1_n_n.rhsNonContracting by decide)]
  rfl

/-- Entry (p, q) of the product into a zero accumulator is the sum over the contracted axis of
    row p of the left operand times column q of the right one. -/
theorem matmul_edge4_at (a : FVec Ideal S3200x64 φ₁) (b : FVec Ideal S64x1 φ₂) (p : Fin 3200) (q : Fin 1) :
    matmul dot_S3200x64_S64x1_S3200x1_1_0_0_1_n_n none a b (constant (F := Ideal) S3200x1 .f32 0x00000000#32) (ix2 p q)
      = ∑ k : Fin 64, a (ix2 p k) * b (ix2 k q) := by
  show FloatOps.matmul dot_S3200x64_S64x1_S3200x1_1_0_0_1_n_n none a b (constant (F := Ideal) S3200x1 .f32 0x00000000#32) (ix2 p q) = _
  rw [Ideal.matmul_constant_zero_apply, ← Equiv.sum_comp (ValueIdx.contrEquiv1 dot_S3200x64_S64x1_S3200x1_1_0_0_1_n_n 64 rfl rfl).symm]
  refine Finset.sum_congr rfl fun k _ => ?_
  have hk := ValueIdx.contrEquiv1_symm_val dot_S3200x64_S64x1_S3200x1_1_0_0_1_n_n 64 rfl rfl k
  have el : dot_S3200x64_S64x1_S3200x1_1_0_0_1_n_n.lhsIdx (ix2 p q) ((ValueIdx.contrEquiv1 dot_S3200x64_S64x1_S3200x1_1_0_0_1_n_n 64 rfl rfl).symm k) = ix2 p k := funext fun a => Fin.ext (by
    match a with
    | ⟨0, _⟩ => exact lhs_edge4_0 _ _
    | ⟨1, _⟩ => exact (lhs_edge4_1 _ _).trans hk)
  have er : dot_S3200x64_S64x1_S3200x1_1_0_0_1_n_n.rhsIdx (ix2 p q) ((ValueIdx.contrEquiv1 dot_S3200x64_S64x1_S3200x1_1_0_0_1_n_n 64 rfl rfl).symm k) = ix2 k q := funext fun a => Fin.ext (by
    match a with
    | ⟨0, _⟩ => exact (rhs_edge4_0 _ _).trans hk
    | ⟨1, _⟩ => exact rhs_edge4_1 _ _)
  rw [el, er]

/-! ### the node transform's product: a row block [4000, 64] against a square matrix [64, 64] -/

theorem lhs_node_0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
theorem lhs_node_1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
theorem rhs_node_0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
theorem rhs_node_1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- Entry (p, q) of the product into a zero accumulator is the sum over the contracted axis of
    row p of the left operand times column q of the right one. -/
theorem matmul_node_at (a : FVec Ideal S4000x64 φ₁) (b : FVec Ideal S64x64 φ₂) (p : Fin 4000) (q : Fin 64) :
    matmul dot_S4000x64_S64x64_S4000x64_1_0_0_1_n_n none a b (constant (F := Ideal) S4000x64 .f32 0x00000000#32) (ix2 p q)
      = ∑ k : Fin 64, a (ix2 p k) * b (ix2 k q) := by
  show FloatOps.matmul dot_S4000x64_S64x64_S4000x64_1_0_0_1_n_n none a b (constant (F := Ideal) S4000x64 .f32 0x00000000#32) (ix2 p q) = _
  rw [Ideal.matmul_constant_zero_apply, ← Equiv.sum_comp (ValueIdx.contrEquiv1 dot_S4000x64_S64x64_S4000x64_1_0_0_1_n_n 64 rfl rfl).symm]
  refine Finset.sum_congr rfl fun k _ => ?_
  have hk := ValueIdx.contrEquiv1_symm_val dot_S4000x64_S64x64_S4000x64_1_0_0_1_n_n 64 rfl rfl k
  have el : dot_S4000x64_S64x64_S4000x64_1_0_0_1_n_n.lhsIdx (ix2 p q) ((ValueIdx.contrEquiv1 dot_S4000x64_S64x64_S4000x64_1_0_0_1_n_n 64 rfl rfl).symm k) = ix2 p k := funext fun a => Fin.ext (by
    match a with
    | ⟨0, _⟩ => exact lhs_node_0 _ _
    | ⟨1, _⟩ => exact (lhs_node_1 _ _).trans hk)
  have er : dot_S4000x64_S64x64_S4000x64_1_0_0_1_n_n.rhsIdx (ix2 p q) ((ValueIdx.contrEquiv1 dot_S4000x64_S64x64_S4000x64_1_0_0_1_n_n 64 rfl rfl).symm k) = ix2 k q := funext fun a => Fin.ext (by
    match a with
    | ⟨0, _⟩ => exact (rhs_node_0 _ _).trans hk
    | ⟨1, _⟩ => exact rhs_node_1 _ _)
  rw [el, er]

end Cert.KernelIdeal.MatmulAt

end
-- ==== Proof.Spec.lean ====
/-
  What the two programs compute, on one edge and on one node, as plain functions of rows of extended reals.

  An edge (u → v) carries the difference d = x_u − x_v through three dense layers, each followed by the leaky
  rectifier (z where z > 0, else slope · z, the slope the binary value of the word 0x3C23D70A), then through a
  fourth layer of one output and the logistic function: that is the edge's gate e ∈ [0, 1]. The edge's message
  is e · x_u. A node's new feature row is the leaky rectifier of  x_v · W_selfᵀ + n_v · W_neighᵀ + bias  (n_v the
  mean of the messages that arrive at v), divided by the larger of its Euclidean norm and the value of the
  word 0x2B8CBCCC.

  A dense layer's output n on a row x is  ∑ₖ x k · W n k + b n : the weight matrix is indexed [output, input],
  as the reference holds it; the kernel holds the transposed matrix and indexes it the other way round.
-/
import Idealize.ShloMosaic.PureOps.Ideal

noncomputable section

namespace Cert.Sage

open Idealize.ShloMosaic

/-- The word 0x3F800000 is the number one. -/
theorem ofBits_one : Ideal.ofBits .f32 0x3F800000#32 = 1 := by
  simp [Ideal.ofBits, Ideal.ieee, -EReal.coe_mul]; norm_num

/-- The leaky rectifier: `z` where `z > 0`, otherwise the slope times `z`. -/
def leaky (z : EReal) : EReal :=
  Scalar.select (FloatOps.cmpf (F := Ideal) (φ := .f32) .ogt z (FloatOps.ofBits (F := Ideal) .f32 0x00000000#32)) z
    (FloatOps.ofBits (F := Ideal) .f32 0x3C23D70A#32 * z)

/-- Output `n` of a dense layer on the row `x`: the row against the weight row `W n`, plus the bias. -/
def dense {K N : ℕ} (x : Fin K → EReal) (W : Fin N → Fin K → EReal) (b : Fin N → EReal) (n : Fin N) : EReal :=
  (∑ k : Fin K, x k * W n k) + b n

/-- A dense layer followed by the leaky rectifier. -/
def layer {K N : ℕ} (x : Fin K → EReal) (W : Fin N → Fin K → EReal) (b : Fin N → EReal) : Fin N → EReal :=
  fun n => leaky (dense x W b n)

/-- The third hidden row of an edge whose endpoint rows are `xs` (source) and `xd` (destination). -/
def hidden (xs xd : Fin 64 → EReal)
    (W1 : Fin 256 → Fin 64 → EReal) (b1 : Fin 256 → EReal) (W2 : Fin 128 → Fin 256 → EReal) (b2 : Fin 128 → EReal)
    (W3 : Fin 64 → Fin 128 → EReal) (b3 : Fin 64 → EReal) : Fin 64 → EReal :=
  layer (layer (layer (fun k => xs k - xd k) W1 b1) W2 b2) W3 b3

/-- The edge's gate: the logistic function of the fourth layer's one output. -/
def gate (xs xd : Fin 64 → EReal)
    (W1 : Fin 256 → Fin 64 → EReal) (b1 : Fin 256 → EReal) (W2 : Fin 128 → Fin 256 → EReal) (b2 : Fin 128 → EReal)
    (W3 : Fin 64 → Fin 128 → EReal) (b3 : Fin 64 → EReal) (W4 : Fin 1 → Fin 64 → EReal) (b4 : Fin 1 → EReal) : EReal :=
  Ideal.logistic (dense (hidden xs xd W1 b1 W2 b2 W3 b3) W4 b4 0)

/-- A node's row before it is normalized: its own row and its neighbourhood's mean row through their two
    matrices, the bias added, the leaky rectifier applied. -/
def nodePre (x nb : Fin 64 → EReal) (Ws Wn : Fin 64 → Fin 64 → EReal) (bias : Fin 64 → EReal) : Fin 64 → EReal :=
  fun n => leaky (((∑ k : Fin 64, x k * Ws n k) + (∑ k : Fin 64, nb k * Wn n k)) + bias n)

/-- The divisor of a node's row: the larger of the row's Euclidean norm and the floor. -/
def nodeNorm (a : Fin 64 → EReal) : EReal :=
  max (Ideal.sqrt (∑ k : Fin 64, a k * a k)) (FloatOps.ofBits (F := Ideal) .f32 0x2B8CBCCC#32)

/-- A node's new row. -/
def nodeOut (x nb : Fin 64 → EReal) (Ws Wn : Fin 64 → Fin 64 → EReal) (bias : Fin 64 → EReal) (n : Fin 64) : EReal :=
  Ideal.div (nodePre x nb Ws Wn bias n) (nodeNorm (nodePre x nb Ws Wn bias))

end Cert.Sage

end
-- ==== Proof.LibColumnLayout.lean ====
/-
  Two layout operations read at an index, for a column kept as a [a, 1] array (what a row reduction with the
  reduced axis kept produces, and what a per-row scalar is held as):
  the cast of a vector [a] to the column [a, 1], and the broadcast of a column [a, 1] over the b columns of [a, b].
  Both read the operand at the row's coordinate and ignore the unit axis.
-/
import Idealize.ShloMosaic.Lib.ValueIdx
import Idealize.ShloMosaic.Lib.Pipeline.Value

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.EdgeAt.lean ====
/-
  The edge kernel's body at one row of its block. The body loads a block of 3200 source rows and 3200
  destination rows and the four (transposed) weight matrices and bias rows whole, and stores two blocks: the gates,
  one per row, and the messages, gate times source row. Read at row p, every operation of the body acts on that
  row alone: a matrix product is the row against the matrix, a bias is added column by column, the leaky
  rectifier and the logistic function act entry by entry, and a change of float format is the identity on the
  extended reals. So the stored gate of row p is `Sage.gate` of the two loaded rows and the loaded matrices (the
  kernel's matrices are held transposed: entry (input k, output n) of the loaded block is W n k).
-/
import proofs.«163080_j17454747091496_1_alg».proof.Proof.Gen.KernelIdeal.Skeleton
import proofs.«163080_j17454747091496_1_alg».proof.Proof.MatmulAt
import proofs.«163080_j17454747091496_1_alg».proof.Proof.Spec
import proofs.«163080_j17454747091496_1_alg».proof.Proof.LibColumnLayout
import Idealize.ShloMosaic.Lib.ValueIdx
import Idealize.ShloMosaic.Lib.ValueLayout
import Idealize.ShloMosaic.Lib.Pipeline.Value

noncomputable section

namespace Cert.KernelIdeal.EdgeAt

open Cert.KernelIdeal Cert.KernelIdeal.Gen Cert.KernelIdeal.MatmulAt Cert.Sage
open Idealize.ShloMosaic Idealize.ShloMosaic.ValueIdx

variable (xs xd : Vec Ideal S3200x64 .f32) (w1 : Vec Ideal S64x256 .bf16) (b1 : Vec Ideal S1x256 .f32)
  (w2 : Vec Ideal S256x128 .bf16) (b2 : Vec Ideal S1x128 .f32) (w3 : Vec Ideal S128x64 .bf16) (b3 : Vec Ideal S1x64 .f32)
  (w4 : Vec Ideal S64x1 .bf16) (b4 : Vec Ideal S1x1 .f32)

/-- The third layer's product, before its bias: at (p, q) the second hidden row of row p against column q of the
    third matrix. -/
theorem pay4_at (p : Fin 3200) (q : Fin 64) :
    k0_pay4 (F := Ideal) xs xd w1 b1 w2 b2 w3 (ix2 p q)
      = ∑ k : Fin 128, layer (layer (fun j => xs (ix2 p j) - xd (ix2 p j)) (fun n j => w1 (ix2 j n)) (fun n => b1 (ix2 (0 : Fin 1) n)))
          (fun n j => w2 (ix2 j n)) (fun n => b2 (ix2 (0 : Fin 1) n)) k * w3 (ix2 k q) := by
  unfold k0_pay4 k0_pay3
  simp only [shapeCast_self, matmul_edge3_at, matmul_edge2_at, matmul_edge1_at, truncf_apply, select_apply, cmpf_apply,
    mulf_apply, addf_apply, subf_apply, broadcast_apply, broadcastTo_1b_ab_apply]
  rfl

/-- The gate the body stores for row p is `Sage.gate` of the row's two loaded rows and the loaded matrices. -/
theorem gate_at (p : Fin 3200) :
    k0_pay1 (F := Ideal) (k0_pay4 (F := Ideal) xs xd w1 b1 w2 b2 w3) b3 w4 b4 (ix2 p (0 : Fin 1))
      = gate (fun k => xs (ix2 p k)) (fun k => xd (ix2 p k)) (fun n j => w1 (ix2 j n)) (fun n => b1 (ix2 (0 : Fin 1) n))
          (fun n j => w2 (ix2 j n)) (fun n => b2 (ix2 (0 : Fin 1) n)) (fun n j => w3 (ix2 j n)) (fun n => b3 (ix2 (0 : Fin 1) n))
          (fun n j => w4 (ix2 j n)) (fun n => b4 (ix2 (0 : Fin 1) n)) := by
  unfold k0_pay1
  simp only [logistic, shapeCast_self, matmul_edge4_at, truncf_apply, select_apply, cmpf_apply, mulf_apply, addf_apply,
    broadcast_apply, broadcastTo_1b_ab_apply, pay4_at]
  rfl

/-- Entry (p, j) of the stored messages: row p's gate times entry j of its source row. -/
theorem msg_at (v34 : FVec Ideal S3200x64 .f32) (p : Fin 3200) (j : Fin 64) :
    k0_pay2 (F := Ideal) (k0_pay3 (F := Ideal) xs) v34 b3 w4 b4 (ix2 p j)
      = k0_pay1 (F := Ideal) v34 b3 w4 b4 (ix2 p (0 : Fin 1)) * xs (ix2 p j) := by
  unfold k0_pay2 k0_pay3
  simp only [shapeCast_self, mulf_apply, broadcastTo_a1_ab_apply]

end Cert.KernelIdeal.EdgeAt

end
-- ==== Proof.LibIndexExt.lean ====
/-
  An index of a rank-1 or rank-2 array is determined by the values of its coordinates: the form in which an
  index computed by a chain of layout operations (a broadcast's, a transpose's, a contraction's operand index) is
  recognised as the plain index `ix1 a` or `ix2 a b`.
-/
import Idealize.ShloMosaic.Lib.ValueIdx

namespace Idealize.ShloMosaic.ValueIdx

/-- A rank-2 index whose coordinates have the values of `a` and `b` is `ix2 a b`. -/
theorem eq_ix2_of_val {n0 n1 : ℕ} (j : (⟨2, ![n0, n1]⟩ : Shape).Idx) (a : Fin n0) (b : Fin n1)
    (h0 : (j 0).val = a.val) (h1 : (j 1).val = b.val) : j = ix2 a b := by
  funext d
  apply Fin.ext
  match d with
  | ⟨0, _⟩ => exact h0
  | ⟨1, _⟩ => exact h1

/-- A rank-1 index whose coordinate has the value of `a` is `ix1 a`. -/
theorem eq_ix1_of_val {n : ℕ} (j : (⟨1, ![n]⟩ : Shape).Idx) (a : Fin n) (h0 : (j 0).val = a.val) : j = ix1 a := by
  funext d
  apply Fin.ext
  match d with
  | ⟨0, _⟩ => exact h0

end Idealize.ShloMosaic.ValueIdx
-- ==== Proof.NodeAt.lean ====
/-
  The node kernel's body at one row of its block. The body loads a block of 4000 node rows and the 4000 mean
  message rows of the same nodes, the two (transposed) square matrices and the bias row whole, and stores one
  block. Read at row p it acts on that row alone: the two products are the row against each matrix, their sum
  takes the bias column by column, the leaky rectifier acts entry by entry, the row's sum of squares is a sum
  over its 64 entries, and the row is divided by the larger of the root of that sum and the floor. So entry
  (p, q) of the stored block is `Sage.nodeOut` of the two loaded rows.
-/
import proofs.«163080_j17454747091496_1_alg».proof.Proof.Gen.KernelIdeal.Skeleton
import proofs.«163080_j17454747091496_1_alg».proof.Proof.MatmulAt
import proofs.«163080_j17454747091496_1_alg».proof.Proof.Spec
import proofs.«163080_j17454747091496_1_alg».proof.Proof.LibColumnLayout
import proofs.«163080_j17454747091496_1_alg».proof.Proof.LibIndexExt
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.NodeAt

open Cert.KernelIdeal Cert.KernelIdeal.Gen Cert.KernelIdeal.MatmulAt Cert.Sage
open Idealize.ShloMosaic Idealize.ShloMosaic.ValueIdx

/-- The sum over a row block's second axis, read at row p: the sum of the row's 64 entries. (The two side conditions
    are typed as the body's own proofs of them are: that f32 is a format the reduction is compiled at, and that the
    accumulator's word is the sum's neutral word.) -/
theorem rowSum_at (v : FVec Ideal S4000x64 .f32) (hφ : FTy.f32 = FTy.f32 ∨ FTy.f32 = FTy.bf16)
    (hacc : (0x00000000#32 : BitVec FTy.f32.bits) = 0x00000000#32) (p : Fin 4000) :
    multiReduction (F := Ideal) .add [1] S4000 v 0x00000000#32 reduces_S4000x64_S4000 hφ hacc (ix1 p)
      = ∑ k : Fin 64, v (ix2 p k) := by
  refine (Ideal.multiReduction_add_single v 0x00000000#32 reduces_S4000x64_S4000 hφ hacc (ix1 p)).trans ?_
  refine Finset.sum_congr rfl fun k _ => congrArg v ?_
  exact eq_ix2_of_val _ p k rfl rfl

variable (x nb : Vec Ideal S4000x64 .f32) (ws wn : Vec Ideal S64x64 .bf16) (bias : Vec Ideal S1x64 .f32)

/-- Entry (p, q) of the block the body stores. -/
theorem pay1_at (p : Fin 4000) (q : Fin 64) :
    k1_pay1 (F := Ideal) x nb ws wn bias (ix2 p q)
      = nodeOut (fun k => x (ix2 p k)) (fun k => nb (ix2 p k)) (fun n j => ws (ix2 j n)) (fun n j => wn (ix2 j n))
          (fun n => bias (ix2 (0 : Fin 1) n)) q := by
  unfold k1_pay1
  simp only [sqrt, shapeCast_self, divf_apply, maximumf_apply, broadcastTo_a1_ab_apply, shapeCast_a_a1_apply,
    matmul_node_at, truncf_apply, select_apply, cmpf_apply, mulf_apply, addf_apply, broadcast_apply, broadcastTo_1b_ab_apply]
  rw [rowSum_at]
  simp only [matmul_node_at, truncf_apply, select_apply, cmpf_apply, mulf_apply, addf_apply, broadcast_apply,
    broadcastTo_1b_ab_apply]
  rfl

end Cert.KernelIdeal.NodeAt

end
-- ==== Proof.Values.lean ====
/-
  The idealized kernel's two results as functions of its arguments.

  Read back through the host operations before the edge region, that region is entered with the gathered source
  and destination rows of the 800000 edges (the node rows taken at the edges' endpoint indices, a negative index
  wrapped), the four weight matrices transposed and the four biases as rows. By the module on the edge body, row p of
  the block stored at point t is the gate, and the message, of edge 3200·t + p; so the region leaves the gate array
  `gates` and the message array `msgs`. The host operations between the regions turn the messages into each node's
  mean incoming message `neigh` (a scatter-add of the messages over the destination indices, divided by the larger
  of the node's in-degree and one); the node region is entered with the node rows, `neigh`, the two square matrices
  transposed and the bias as a row, and by the module on the node body leaves the array `nodes`.
-/
import proofs.«163080_j17454747091496_1_alg».proof.Proof.Blocks
import proofs.«163080_j17454747091496_1_alg».proof.Proof.EdgeAt
import proofs.«163080_j17454747091496_1_alg».proof.Proof.NodeAt
import proofs.«163080_j17454747091496_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.Sage

variable (m : (ℓ : Loc nD τ sig) → Buf (Elt Ideal) ℓ) (ρ : Dev nD → PrngReg)

/-! ## The arguments, and the arrays computed from them -/

/-- The node rows. -/
abbrev a0 (c : Dev nD) : S100000x64.Idx → EReal := (m ((c : Thread nD τ).loc main_arg0))
/-- The edges' source and destination node indices. -/
abbrev a1 (c : Dev nD) : IVec S800000 32 := (m ((c : Thread nD τ).loc main_arg1))
abbrev a2 (c : Dev nD) : IVec S800000 32 := (m ((c : Thread nD τ).loc main_arg2))
/-- The edge network's four weight matrices (indexed [output, input]) and biases. -/
abbrev a3 (c : Dev nD) : S256x64.Idx → EReal := (m ((c : Thread nD τ).loc main_arg3))
abbrev a4 (c : Dev nD) : S256.Idx → EReal := (m ((c : Thread nD τ).loc main_arg4))
abbrev a5 (c : Dev nD) : S128x256.Idx → EReal := (m ((c : Thread nD τ).loc main_arg5))
abbrev a6 (c : Dev nD) : S128.Idx → EReal := (m ((c : Thread nD τ).loc main_arg6))
abbrev a7 (c : Dev nD) : S64x128.Idx → EReal := (m ((c : Thread nD τ).loc main_arg7))
abbrev a8 (c : Dev nD) : S64.Idx → EReal := (m ((c : Thread nD τ).loc main_arg8))
abbrev a9 (c : Dev nD) : S1x64.Idx → EReal := (m ((c : Thread nD τ).loc main_arg9))
abbrev a10 (c : Dev nD) : S1.Idx → EReal := (m ((c : Thread nD τ).loc main_arg10))
/-- The node transform's two square matrices and its bias. -/
abbrev a11 (c : Dev nD) : S64x64.Idx → EReal := (m ((c : Thread nD τ).loc main_arg11))
abbrev a12 (c : Dev nD) : S64x64.Idx → EReal := (m ((c : Thread nD τ).loc main_arg12))
abbrev a13 (c : Dev nD) : S64.Idx → EReal := (m ((c : Thread nD τ).loc main_arg13))

/-- A vector of node indices with the negative ones wrapped, as a column of gather indices. -/
abbrev wrapIdx (x : IVec S800000 32) : IVec S800000x1 32 :=
  broadcastInDim S800000x1 ![0] bcast_S800000_S800000x1_0
    (select (cmpi .slt x (broadcastInDim S800000 ![] bcast_S_S800000 (constantI S_ 32 0#32)))
      (addi x (broadcastInDim S800000 ![] bcast_S_S800000 (constantI S_ 32 100000#32))) x)

/-- The node rows gathered at the edges' source indices, and at their destination indices. -/
def srcRows (c : Dev nD) : S800000x64.Idx → EReal :=
  Host.gather gather_S100000x64_S800000x1_S800000x64_1_0_n_n_0_1_164 (a0 m c) (wrapIdx (a1 m c))
def dstRows (c : Dev nD) : S800000x64.Idx → EReal :=
  Host.gather gather_S100000x64_S800000x1_S800000x64_1_0_n_n_0_1_164 (a0 m c) (wrapIdx (a2 m c))

/-- The gate of edge r. -/
def gateOf (c : Dev nD) (r : Fin 800000) : EReal :=
  gate (fun k => srcRows m c (ix2 r k)) (fun k => dstRows m c (ix2 r k))
      (fun n k => a3 m c (ix2 n k)) (fun n => a4 m c (ix1 n)) (fun n k => a5 m c (ix2 n k)) (fun n => a6 m c (ix1 n))
      (fun n k => a7 m c (ix2 n k)) (fun n => a8 m c (ix1 n)) (fun n k => a9 m c (ix2 n k)) (fun n => a10 m c (ix1 n))

/-- The gate array and the message array. -/
def gates (c : Dev nD) : S800000x1.Idx → EReal := fun i => gateOf m c ⟨(i 0).val, (i 0).isLt⟩
def msgs (c : Dev nD) : S800000x64.Idx → EReal := fun i => gateOf m c ⟨(i 0).val, (i 0).isLt⟩ * srcRows m c i

/-- Each node's mean incoming message, as the host operations between the two regions compute it from a message
    array and the destination indices. -/
abbrev meanOf (msg : S800000x64.Idx → EReal) (dst : IVec S800000 32) : S100000x64.Idx → EReal :=
  Host.divf (F := Ideal)
    (Host.scatterAdd (F := Ideal) scatter_S100000x64_S800000x1_S800000x64_1_0_0_1
      (broadcastInDim S100000x64 ![] bcast_S_S100000x64 (constant (F := Ideal) S_ .f32 0x00000000#32))
      (broadcastInDim S800000x1 ![0] bcast_S800000_S800000x1_0 dst) msg)
    (broadcastInDim S100000x64 ![0, 1] bcast_S100000x1_S100000x64_0_1
      (broadcastInDim S100000x1 ![0] bcast_S100000_S100000x1_0
        (maximumf (F := Ideal)
          (Host.scatterAdd (F := Ideal) scatter_S100000_S800000x1_S800000_n_0_0_1
            (broadcastInDim S100000 ![] bcast_S_S100000 (constant (F := Ideal) S_ .f32 0x00000000#32))
            (broadcastInDim S800000x1 ![0] bcast_S800000_S800000x1_0 dst)
            (broadcastInDim S800000 ![] bcast_S_S800000 (constant (F := Ideal) S_ .f32 0x3F800000#32)))
          (broadcastInDim S100000 ![] bcast_S_S100000 (constant (F := Ideal) S_ .f32 0x3F800000#32)))))

def neigh (c : Dev nD) : S100000x64.Idx → EReal := meanOf (msgs m c) (a2 m c)

/-- The node array. -/
def nodes (c : Dev nD) : S100000x64.Idx → EReal := fun i =>
  nodeOut (fun k => a0 m c (ix2 (⟨(i 0).val, (i 0).isLt⟩ : Fin 100000) k)) (fun k => neigh m c (ix2 (⟨(i 0).val, (i 0).isLt⟩ : Fin 100000) k))
    (fun n k => a11 m c (ix2 n k)) (fun n k => a12 m c (ix2 n k)) (fun n => a13 m c (ix1 n)) ⟨(i 1).val, (i 1).isLt⟩

/-! ## What the edge region is entered with -/

theorem V1_v6 (c : Dev nD) : @Eq (S800000x64.Idx → EReal) (V1 m ρ c main_v6) (srcRows m c) := by
  show StableHlo.after hostOps0 (W0 m ρ c) (Proc.devRef .tc main_v6) = _
  after_results <;> rfl
theorem V1_v13 (c : Dev nD) : @Eq (S800000x64.Idx → EReal) (V1 m ρ c main_v13) (dstRows m c) := by
  show StableHlo.after hostOps0 (W0 m ρ c) (Proc.devRef .tc main_v13) = _
  after_results <;> rfl
theorem V1_v15 (c : Dev nD) : @Eq (S64x256.Idx → EReal) (V1 m ρ c main_v15) (truncf (F := Ideal) .bf16 (transpose S64x256 [1, 0] (a3 m c) transposes_S256x64_S64x256_1_0) bitsLt_bf16_f32) := by
  show StableHlo.after hostOps0 (W0 m ρ c) (Proc.devRef .tc main_v15) = _
  after_results <;> rfl
theorem V1_v22 (c : Dev nD) : @Eq (S1x256.Idx → EReal) (V1 m ρ c main_v22) (shapeCast S1x256 (a4 m c) shapeCasts_S256_S1x256) := by
  show StableHlo.after hostOps0 (W0 m ρ c) (Proc.devRef .tc main_v22) = _
  after_results <;> rfl
theorem V1_v17 (c : Dev nD) : @Eq (S256x128.Idx → EReal) (V1 m ρ c main_v17) (truncf (F := Ideal) .bf16 (transpose S256x128 [1, 0] (a5 m c) transposes_S128x256_S256x128_1_0) bitsLt_bf16_f32) := by
  show StableHlo.after hostOps0 (W0 m ρ c) (Proc.devRef .tc main_v17) = _
  after_results <;> rfl
theorem V1_v23 (c : Dev nD) : @Eq (S1x128.Idx → EReal) (V1 m ρ c main_v23) (shapeCast S1x128 (a6 m c) shapeCasts_S128_S1x128) := by
  show StableHlo.after hostOps0 (W0 m ρ c) (Proc.devRef .tc main_v23) = _
  after_results <;> rfl
theorem V1_v19 (c : Dev nD) : @Eq (S128x64.Idx → EReal) (V1 m ρ c main_v19) (truncf (F := Ideal) .bf16 (transpose S128x64 [1, 0] (a7 m c) transposes_S64x128_S128x64_1_0) bitsLt_bf16_f32) := by
  show StableHlo.after hostOps0 (W0 m ρ c) (Proc.devRef .tc main_v19) = _
  after_results <;> rfl
theorem V1_v24 (c : Dev nD) : @Eq (S1x64.Idx → EReal) (V1 m ρ c main_v24) (shapeCast S1x64 (a8 m c) shapeCasts_S64_S1x64) := by
  show StableHlo.after hostOps0 (W0 m ρ c) (Proc.devRef .tc main_v24) = _
  after_results <;> rfl
theorem V1_v21 (c : Dev nD) : @Eq (S64x1.Idx → EReal) (V1 m ρ c main_v21) (truncf (F := Ideal) .bf16 (transpose S64x1 [1, 0] (a9 m c) transposes_S1x64_S64x1_1_0) bitsLt_bf16_f32) := by
  show StableHlo.after hostOps0 (W0 m ρ c) (Proc.devRef .tc main_v21) = _
  after_results <;> rfl
theorem V1_v25 (c : Dev nD) : @Eq (S1x1.Idx → EReal) (V1 m ρ c main_v25) (shapeCast S1x1 (a10 m c) shapeCasts_S1_S1x1) := by
  show StableHlo.after hostOps0 (W0 m ρ c) (Proc.devRef .tc main_v25) = _
  after_results <;> rfl

/-! ## The edge region's stored rows, and the arrays it leaves -/

/-- Row p of the gates stored at point t is the gate of edge 3200·t + p. -/
theorem gate_blk (c : Dev nD) (t : Fin cfg0.N) (p : Fin 3200) (r : Fin 800000) (hr : r.val = t.val * 3200 + p.val) :
    k0_pay1 (F := Ideal) (k0_pay4 (F := Ideal) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t)) (iblk0 (V1 m ρ) c 7 t) (iblk0 (V1 m ρ) c 8 t) (iblk0 (V1 m ρ) c 9 t) (ix2 p (0 : Fin 1)) = gateOf m c r := by
  rw [EdgeAt.gate_at]
  have h0 : ∀ k : Fin 64, (iblk0 (V1 m ρ) c 0 t : Vec Ideal S3200x64 .f32) (ix2 p k) = srcRows m c (ix2 r k) := fun k => by
    rw [Blocks.iblk0_0_at (V1 m ρ) c t p k r hr, V1_v6]
  have h1 : ∀ k : Fin 64, (iblk0 (V1 m ρ) c 1 t : Vec Ideal S3200x64 .f32) (ix2 p k) = dstRows m c (ix2 r k) := fun k => by
    rw [Blocks.iblk0_1_at (V1 m ρ) c t p k r hr, V1_v13]
  have h2 : ∀ (n : Fin 256) (j : Fin 64), (iblk0 (V1 m ρ) c 2 t : Vec Ideal S64x256 .bf16) (ix2 j n) = a3 m c (ix2 n j) := fun n j => by
    rw [Blocks.iblk0_2_eq, V1_v15]; exact transpose_ix2_apply (a3 m c) _ j n
  have h3 : ∀ n : Fin 256, (iblk0 (V1 m ρ) c 3 t : Vec Ideal S1x256 .f32) (ix2 (0 : Fin 1) n) = a4 m c (ix1 n) := fun n => by
    rw [Blocks.iblk0_3_eq, V1_v22]; exact shapeCast_a_1a_apply (a4 m c) _ 0 n
  have h4 : ∀ (n : Fin 128) (j : Fin 256), (iblk0 (V1 m ρ) c 4 t : Vec Ideal S256x128 .bf16) (ix2 j n) = a5 m c (ix2 n j) := fun n j => by
    rw [Blocks.iblk0_4_eq, V1_v17]; exact transpose_ix2_apply (a5 m c) _ j n
  have h5 : ∀ n : Fin 128, (iblk0 (V1 m ρ) c 5 t : Vec Ideal S1x128 .f32) (ix2 (0 : Fin 1) n) = a6 m c (ix1 n) := fun n => by
    rw [Blocks.iblk0_5_eq, V1_v23]; exact shapeCast_a_1a_apply (a6 m c) _ 0 n
  have h6 : ∀ (n : Fin 64) (j : Fin 128), (iblk0 (V1 m ρ) c 6 t : Vec Ideal S128x64 .bf16) (ix2 j n) = a7 m c (ix2 n j) := fun n j => by
    rw [Blocks.iblk0_6_eq, V1_v19]; exact transpose_ix2_apply (a7 m c) _ j n
  have h7 : ∀ n : Fin 64, (iblk0 (V1 m ρ) c 7 t : Vec Ideal S1x64 .f32) (ix2 (0 : Fin 1) n) = a8 m c (ix1 n) := fun n => by
    rw [Blocks.iblk0_7_eq, V1_v24]; exact shapeCast_a_1a_apply (a8 m c) _ 0 n
  have h8 : ∀ (n : Fin 1) (j : Fin 64), (iblk0 (V1 m ρ) c 8 t : Vec Ideal S64x1 .bf16) (ix2 j n) = a9 m c (ix2 n j) := fun n j => by
    rw [Blocks.iblk0_8_eq, V1_v21]; exact transpose_ix2_apply (a9 m c) _ j n
  have h9 : ∀ n : Fin 1, (iblk0 (V1 m ρ) c 9 t : Vec Ideal S1x1 .f32) (ix2 (0 : Fin 1) n) = a10 m c (ix1 n) := fun n => by
    rw [Blocks.iblk0_9_eq, V1_v25]; exact shapeCast_a_1a_apply (a10 m c) _ 0 n
  simp only [h0, h1, h2, h3, h4, h5, h6, h7, h8, h9]
  rfl

/-- Entry (p, q) of the messages stored at point t is the gate of edge 3200·t + p times entry q of its source row. -/
theorem msg_blk (c : Dev nD) (t : Fin cfg0.N) (p : Fin 3200) (q : Fin 64) (r : Fin 800000) (hr : r.val = t.val * 3200 + p.val) :
    k0_pay2 (F := Ideal) (k0_pay3 (F := Ideal) (iblk0 (V1 m ρ) c 0 t)) (k0_pay4 (F := Ideal) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t)) (iblk0 (V1 m ρ) c 7 t) (iblk0 (V1 m ρ) c 8 t) (iblk0 (V1 m ρ) c 9 t) (ix2 p q) = msgs m c (ix2 r q) := by
  rw [EdgeAt.msg_at, gate_blk m ρ c t p r hr, Blocks.iblk0_0_at (V1 m ρ) c t p q r hr, V1_v6]
  rfl

/-- The edge region leaves the gate array. -/
theorem gates_left (c : Dev nD) : (dat0 (V1 m ρ) c).arrAt 11 cfg0.N = gates m c :=
  Blocks.final0_11 (V1 m ρ) c (gates m c)
    (Blocks.flushed0_11_eq (V1 m ρ) c (gates m c) fun t p r hr => gate_blk m ρ c t p r hr)

/-- The edge region leaves the message array. -/
theorem msgs_left (c : Dev nD) : (dat0 (V1 m ρ) c).arrAt 10 cfg0.N = msgs m c :=
  Blocks.final0_10 (V1 m ρ) c (msgs m c)
    (Blocks.flushed0_10_eq (V1 m ρ) c (msgs m c) fun t p q r hr => msg_blk m ρ c t p q r hr)

/-! ## What the node region is entered with -/

/-- An argument no host operation and no window of the edge region writes is, at that region's exit, what it was. -/
theorem W2_arg (c : Dev nD) (b : Ref sig .tc) (hb : ∀ w, Pipeline.arrRef spec0 w ≠ b)
    (h0 : StableHlo.after hostOps0 (W0 m ρ c) (Proc.devRef .tc b) = m ((c : Thread nD τ).loc b)) :
    W2 m ρ c (Proc.devRef .tc b) = m ((c : Thread nD τ).loc b) := by
  rw [W2_of_ne m ρ c b hb]; exact h0

theorem W2_arg0 (c : Dev nD) : W2 m ρ c (Proc.devRef .tc main_arg0) = a0 m c :=
  W2_arg m ρ c main_arg0 (by decide) (by after_results <;> rfl)
theorem W2_arg2 (c : Dev nD) : W2 m ρ c (Proc.devRef .tc main_arg2) = a2 m c :=
  W2_arg m ρ c main_arg2 (by decide) (by after_results <;> rfl)
theorem W2_arg11 (c : Dev nD) : W2 m ρ c (Proc.devRef .tc main_arg11) = a11 m c :=
  W2_arg m ρ c main_arg11 (by decide) (by after_results <;> rfl)
theorem W2_arg12 (c : Dev nD) : W2 m ρ c (Proc.devRef .tc main_arg12) = a12 m c :=
  W2_arg m ρ c main_arg12 (by decide) (by after_results <;> rfl)
theorem W2_arg13 (c : Dev nD) : W2 m ρ c (Proc.devRef .tc main_arg13) = a13 m c :=
  W2_arg m ρ c main_arg13 (by decide) (by after_results <;> rfl)

theorem V3_arg0 (c : Dev nD) : @Eq (S100000x64.Idx → EReal) (V3 m ρ c main_arg0) (a0 m c) := by
  have h : StableHlo.after hostOps1 (W2 m ρ c) (Proc.devRef .tc main_arg0) = W2 m ρ c (Proc.devRef .tc main_arg0) := by
    after_results <;> rfl
  exact h.trans (W2_arg0 m ρ c)

theorem V3_v38 (c : Dev nD) : @Eq (S100000x64.Idx → EReal) (V3 m ρ c main_v38) (neigh m c) := by
  have h : @Eq (S100000x64.Idx → EReal) (StableHlo.after hostOps1 (W2 m ρ c) (Proc.devRef .tc main_v38))
      (meanOf (W2 m ρ c (Proc.devRef .tc main_v26_0)) (W2 m ρ c (Proc.devRef .tc main_arg2))) := by
    after_results <;> rfl
  refine h.trans ?_
  rw [W2_arg2, show W2 m ρ c (Proc.devRef .tc main_v26_0) = (dat0 (V1 m ρ) c).arrAt 10 cfg0.N from W2_arr m ρ c 10, msgs_left]
  rfl

theorem V3_v40 (c : Dev nD) : @Eq (S64x64.Idx → EReal) (V3 m ρ c main_v40)
    (truncf (F := Ideal) .bf16 (transpose S64x64 [1, 0] (a11 m c) transposes_S64x64_S64x64_1_0) bitsLt_bf16_f32) := by
  have h : @Eq (S64x64.Idx → EReal) (StableHlo.after hostOps1 (W2 m ρ c) (Proc.devRef .tc main_v40))
      (truncf (F := Ideal) .bf16 (transpose S64x64 [1, 0] (W2 m ρ c (Proc.devRef .tc main_arg11) : S64x64.Idx → EReal) transposes_S64x64_S64x64_1_0) bitsLt_bf16_f32) := by
    after_results <;> rfl
  refine h.trans ?_
  rw [W2_arg11]
theorem V3_v42 (c : Dev nD) : @Eq (S64x64.Idx → EReal) (V3 m ρ c main_v42)
    (truncf (F := Ideal) .bf16 (transpose S64x64 [1, 0] (a12 m c) transposes_S64x64_S64x64_1_0) bitsLt_bf16_f32) := by
  have h : @Eq (S64x64.Idx → EReal) (StableHlo.after hostOps1 (W2 m ρ c) (Proc.devRef .tc main_v42))
      (truncf (F := Ideal) .bf16 (transpose S64x64 [1, 0] (W2 m ρ c (Proc.devRef .tc main_arg12) : S64x64.Idx → EReal) transposes_S64x64_S64x64_1_0) bitsLt_bf16_f32) := by
    after_results <;> rfl
  refine h.trans ?_
  rw [W2_arg12]
theorem V3_v43 (c : Dev nD) : @Eq (S1x64.Idx → EReal) (V3 m ρ c main_v43) (shapeCast S1x64 (a13 m c) shapeCasts_S64_S1x64) := by
  have h : @Eq (S1x64.Idx → EReal) (StableHlo.after hostOps1 (W2 m ρ c) (Proc.devRef .tc main_v43))
      (shapeCast S1x64 (W2 m ρ c (Proc.devRef .tc main_arg13) : S64.Idx → EReal) shapeCasts_S64_S1x64) := by
    after_results <;> rfl
  refine h.trans ?_
  rw [W2_arg13]

/-! ## The node region's stored rows, and the array it leaves -/

/-- Entry (p, q) of the block stored at point t is entry q of node 4000·t + p's new row. -/
theorem node_blk (c : Dev nD) (t : Fin cfg1.N) (p : Fin 4000) (q : Fin 64) (n : Fin 100000) (hn : n.val = t.val * 4000 + p.val) :
    k1_pay1 (F := Ideal) (iblk1 (V3 m ρ) c 0 t) (iblk1 (V3 m ρ) c 1 t) (iblk1 (V3 m ρ) c 2 t) (iblk1 (V3 m ρ) c 3 t) (iblk1 (V3 m ρ) c 4 t) (ix2 p q)
      = nodes m c (ix2 n q) := by
  rw [NodeAt.pay1_at]
  have h0 : ∀ k : Fin 64, (iblk1 (V3 m ρ) c 0 t : Vec Ideal S4000x64 .f32) (ix2 p k) = a0 m c (ix2 n k) := fun k => by
    rw [Blocks.iblk1_0_at (V3 m ρ) c t p k n hn, V3_arg0]
  have h1 : ∀ k : Fin 64, (iblk1 (V3 m ρ) c 1 t : Vec Ideal S4000x64 .f32) (ix2 p k) = neigh m c (ix2 n k) := fun k => by
    rw [Blocks.iblk1_1_at (V3 m ρ) c t p k n hn, V3_v38]
  have h2 : ∀ (o j : Fin 64), (iblk1 (V3 m ρ) c 2 t : Vec Ideal S64x64 .bf16) (ix2 j o) = a11 m c (ix2 o j) := fun o j => by
    rw [Blocks.iblk1_2_eq, V3_v40]; exact transpose_ix2_apply (a11 m c) _ j o
  have h3 : ∀ (o j : Fin 64), (iblk1 (V3 m ρ) c 3 t : Vec Ideal S64x64 .bf16) (ix2 j o) = a12 m c (ix2 o j) := fun o j => by
    rw [Blocks.iblk1_3_eq, V3_v42]; exact transpose_ix2_apply (a12 m c) _ j o
  have h4 : ∀ o : Fin 64, (iblk1 (V3 m ρ) c 4 t : Vec Ideal S1x64 .f32) (ix2 (0 : Fin 1) o) = a13 m c (ix1 o) := fun o => by
    rw [Blocks.iblk1_4_eq, V3_v43]; exact shapeCast_a_1a_apply (a13 m c) _ 0 o
  simp only [h0, h1, h2, h3, h4]
  rfl

/-- The node region leaves the node array. -/
theorem nodes_left (c : Dev nD) : (dat1 (V3 m ρ) c).arrAt 5 cfg1.N = nodes m c :=
  Blocks.final1_5 (V3 m ρ) c (nodes m c)
    (Blocks.flushed1_5_eq (V3 m ρ) c (nodes m c) fun t p q n hn => node_blk m ρ c t p q n hn)

/-! ## The last boundary's contents at the two result buffers -/

theorem W4_nodes (c : Dev nD) : @Eq (S100000x64.Idx → EReal) (W4 m ρ c (Proc.devRef .tc main_v44)) (nodes m c) :=
  (W4_arr m ρ c 5).trans (nodes_left m ρ c)

theorem W4_gates (c : Dev nD) : @Eq (S800000x1.Idx → EReal) (W4 m ρ c (Proc.devRef .tc main_v26_1)) (gates m c) := by
  rw [W4_of_ne m ρ c main_v26_1 (by decide)]
  have h : StableHlo.after hostOps1 (W2 m ρ c) (Proc.devRef .tc main_v26_1) = W2 m ρ c (Proc.devRef .tc main_v26_1) := by
    after_results <;> rfl
  exact h.trans ((W2_arr m ρ c 11).trans (gates_left m ρ c))

end Cert.KernelIdeal.Arrays

end
-- ==== Proof.RefAt.lean ====
/-
  The reference, stage by stage, at one row. The reference computes on whole arrays: the gathered source and
  destination rows of all 800000 edges, their difference, three dense layers with the leaky rectifier, the gate,
  the messages, their mean over each node's incoming edges, the node transform and its normalization. Each of
  these stages acts row by row, so read at row r it is the corresponding function of `Sage` of that row: a
  `dot_general` against a transposed weight matrix is the row against the matrix's rows, a bias broadcast adds
  the bias's entry of the column, and jax's expansion of the logistic function (negate, exponential, add one,
  divide one by it) is the logistic function.
-/
import proofs.«163080_j17454747091496_1_alg».proof.Proof.Gen.ReferenceIdeal.Read
import proofs.«163080_j17454747091496_1_alg».proof.Proof.Spec
import proofs.«163080_j17454747091496_1_alg».proof.Proof.LibIndexExt
import Idealize.ShloMosaic.Lib.ValueIdx
import Idealize.ShloMosaic.PureOps.Ideal.Laws

noncomputable section

namespace Cert.ReferenceIdeal.RefAt

open Cert.ReferenceIdeal Cert.ReferenceIdeal.Gen Cert.ReferenceIdeal.Read Cert.Sage
open Idealize.ShloMosaic Idealize.ShloMosaic.ValueIdx

variable (x0 : (⟨S100000x64, .f32⟩ : BufTy).Contents (Elt Ideal)) (x1 x2 : (⟨S800000, .i32⟩ : BufTy).Contents (Elt Ideal))
  (x3 : (⟨S256x64, .f32⟩ : BufTy).Contents (Elt Ideal)) (x4 : (⟨S256, .f32⟩ : BufTy).Contents (Elt Ideal))
  (x5 : (⟨S128x256, .f32⟩ : BufTy).Contents (Elt Ideal)) (x6 : (⟨S128, .f32⟩ : BufTy).Contents (Elt Ideal))
  (x7 : (⟨S64x128, .f32⟩ : BufTy).Contents (Elt Ideal)) (x8 : (⟨S64, .f32⟩ : BufTy).Contents (Elt Ideal))
  (x9 : (⟨S1x64, .f32⟩ : BufTy).Contents (Elt Ideal)) (x10 : (⟨S1, .f32⟩ : BufTy).Contents (Elt Ideal))
  (x11 x12 : (⟨S64x64, .f32⟩ : BufTy).Contents (Elt Ideal)) (x13 : (⟨S64, .f32⟩ : BufTy).Contents (Elt Ideal))

/-! ## The edge's three hidden rows -/

/-- The first hidden row of edge r. -/
theorem hid1_at (r : Fin 800000) (q : Fin 256) :
    val_main_v24 (F := Ideal) x0 x1 x2 x3 x4 (ix2 r q) = layer (fun k => val_main_v6 (F := Ideal) x0 x1 (ix2 r k) - val_main_v13 (F := Ideal) x0 x2 (ix2 r k)) (fun n k => x3 (ix2 n k)) (fun n => x4 (ix1 n)) q := by
  have e16 : val_main_v16 (F := Ideal) x0 x1 x2 x3 (ix2 r q)
      = ∑ k : Fin 64, (val_main_v6 (F := Ideal) x0 x1 (ix2 r k) - val_main_v13 (F := Ideal) x0 x2 (ix2 r k)) * x3 (ix2 q k) := by
    rw [val_main_v16_apply]
    refine Finset.sum_congr rfl fun k _ => ?_
    rw [val_main_v15_apply, eq_ix2_of_val (lidx_main_v16 (ix2 r q) k) r k rfl rfl,
      eq_ix2_of_val (idx_main_v15 (ridx_main_v16 (ix2 r q) k)) q k rfl rfl]
    rfl
  have e18 : val_main_v18 (F := Ideal) x4 (ix2 r q) = x4 (ix1 q) := by
    rw [val_main_v18_apply, val_main_v17_apply, eq_ix1_of_val (idx_main_v17 (idx_main_v18 (ix2 r q))) q rfl]
  show leaky (val_main_v16 (F := Ideal) x0 x1 x2 x3 (ix2 r q) + val_main_v18 (F := Ideal) x4 (ix2 r q)) = _
  rw [e16, e18]
  rfl

/-- The second hidden row of edge r. -/
theorem hid2_at (r : Fin 800000) (q : Fin 128) :
    val_main_v34 (F := Ideal) x0 x1 x2 x3 x4 x5 x6 (ix2 r q) = layer (layer (fun k => val_main_v6 (F := Ideal) x0 x1 (ix2 r k) - val_main_v13 (F := Ideal) x0 x2 (ix2 r k)) (fun n k => x3 (ix2 n k)) (fun n => x4 (ix1 n))) (fun n k => x5 (ix2 n k)) (fun n => x6 (ix1 n)) q := by
  have e26 : val_main_v26 (F := Ideal) x0 x1 x2 x3 x4 x5 (ix2 r q)
      = ∑ k : Fin 256, layer (fun k => val_main_v6 (F := Ideal) x0 x1 (ix2 r k) - val_main_v13 (F := Ideal) x0 x2 (ix2 r k)) (fun n k => x3 (ix2 n k)) (fun n => x4 (ix1 n)) k * x5 (ix2 q k) := by
    rw [val_main_v26_apply]
    refine Finset.sum_congr rfl fun k _ => ?_
    rw [val_main_v25_apply, eq_ix2_of_val (lidx_main_v26 (ix2 r q) k) r k rfl rfl,
      eq_ix2_of_val (idx_main_v25 (ridx_main_v26 (ix2 r q) k)) q k rfl rfl, hid1_at]
  have e28 : val_main_v28 (F := Ideal) x6 (ix2 r q) = x6 (ix1 q) := by
    rw [val_main_v28_apply, val_main_v27_apply, eq_ix1_of_val (idx_main_v27 (idx_main_v28 (ix2 r q))) q rfl]
  show leaky (val_main_v26 (F := Ideal) x0 x1 x2 x3 x4 x5 (ix2 r q) + val_main_v28 (F := Ideal) x6 (ix2 r q)) = _
  rw [e26, e28]
  rfl

/-- The third hidden row of edge r. -/
theorem hid3_at (r : Fin 800000) (q : Fin 64) :
    val_main_v44 (F := Ideal) x0 x1 x2 x3 x4 x5 x6 x7 x8 (ix2 r q)
      = hidden (fun k => val_main_v6 (F := Ideal) x0 x1 (ix2 r k)) (fun k => val_main_v13 (F := Ideal) x0 x2 (ix2 r k)) (fun n k => x3 (ix2 n k)) (fun n => x4 (ix1 n)) (fun n k => x5 (ix2 n k)) (fun n => x6 (ix1 n)) (fun n k => x7 (ix2 n k)) (fun n => x8 (ix1 n)) q := by
  have e36 : val_main_v36 (F := Ideal) x0 x1 x2 x3 x4 x5 x6 x7 (ix2 r q)
      = ∑ k : Fin 128, layer (layer (fun k => val_main_v6 (F := Ideal) x0 x1 (ix2 r k) - val_main_v13 (F := Ideal) x0 x2 (ix2 r k)) (fun n k => x3 (ix2 n k)) (fun n => x4 (ix1 n))) (fun n k => x5 (ix2 n k)) (fun n => x6 (ix1 n)) k * x7 (ix2 q k) := by
    rw [val_main_v36_apply]
    refine Finset.sum_congr rfl fun k _ => ?_
    rw [val_main_v35_apply, eq_ix2_of_val (lidx_main_v36 (ix2 r q) k) r k rfl rfl,
      eq_ix2_of_val (idx_main_v35 (ridx_main_v36 (ix2 r q) k)) q k rfl rfl, hid2_at]
  have e38 : val_main_v38 (F := Ideal) x8 (ix2 r q) = x8 (ix1 q) := by
    rw [val_main_v38_apply, val_main_v37_apply, eq_ix1_of_val (idx_main_v37 (idx_main_v38 (ix2 r q))) q rfl]
  show leaky (val_main_v36 (F := Ideal) x0 x1 x2 x3 x4 x5 x6 x7 (ix2 r q) + val_main_v38 (F := Ideal) x8 (ix2 r q)) = _
  rw [e36, e38]
  rfl

/-! ## The gate and the message -/

/-- The gate of edge r: jax's expansion of the logistic function, of the fourth layer's output. -/
theorem gate_at (r : Fin 800000) :
    val_main_v55 (F := Ideal) x0 x1 x2 x3 x4 x5 x6 x7 x8 x9 x10 (ix2 r (0 : Fin 1))
      = gate (fun k => val_main_v6 (F := Ideal) x0 x1 (ix2 r k)) (fun k => val_main_v13 (F := Ideal) x0 x2 (ix2 r k)) (fun n k => x3 (ix2 n k)) (fun n => x4 (ix1 n)) (fun n k => x5 (ix2 n k)) (fun n => x6 (ix1 n)) (fun n k => x7 (ix2 n k)) (fun n => x8 (ix1 n)) (fun n k => x9 (ix2 n k)) (fun n => x10 (ix1 n)) := by
  have e46 : val_main_v46 (F := Ideal) x0 x1 x2 x3 x4 x5 x6 x7 x8 x9 (ix2 r (0 : Fin 1))
      = ∑ k : Fin 64, hidden (fun k => val_main_v6 (F := Ideal) x0 x1 (ix2 r k)) (fun k => val_main_v13 (F := Ideal) x0 x2 (ix2 r k)) (fun n k => x3 (ix2 n k)) (fun n => x4 (ix1 n)) (fun n k => x5 (ix2 n k)) (fun n => x6 (ix1 n)) (fun n k => x7 (ix2 n k)) (fun n => x8 (ix1 n)) k * x9 (ix2 (0 : Fin 1) k) := by
    rw [val_main_v46_apply]
    refine Finset.sum_congr rfl fun k _ => ?_
    rw [val_main_v45_apply, eq_ix2_of_val (lidx_main_v46 (ix2 r (0 : Fin 1)) k) r k rfl rfl,
      eq_ix2_of_val (idx_main_v45 (ridx_main_v46 (ix2 r (0 : Fin 1)) k)) (0 : Fin 1) k rfl rfl, hid3_at]
  have e48 : val_main_v48 (F := Ideal) x10 (ix2 r (0 : Fin 1)) = x10 (ix1 (0 : Fin 1)) := by
    rw [val_main_v48_apply, val_main_v47_apply, eq_ix1_of_val (idx_main_v47 (idx_main_v48 (ix2 r (0 : Fin 1)))) (0 : Fin 1) rfl]
  show Ideal.div (Ideal.ofBits .f32 0x3F800000#32) (Ideal.ofBits .f32 0x3F800000#32
      + Ideal.exp (-(val_main_v46 (F := Ideal) x0 x1 x2 x3 x4 x5 x6 x7 x8 x9 (ix2 r (0 : Fin 1)) + val_main_v48 (F := Ideal) x10 (ix2 r (0 : Fin 1))))) = _
  rw [e46, e48, ofBits_one]
  rfl

/-- The source rows gathered for the messages are the source rows gathered for the differences: the same gather
    of the same wrapped indices, printed twice. -/
theorem src_again : val_main_v62 (F := Ideal) x0 x1 = val_main_v6 (F := Ideal) x0 x1 := rfl

/-- Entry (r, j) of the messages: the gate of edge r times entry j of its source row. -/
theorem msg_at (r : Fin 800000) (j : Fin 64) :
    val_main_v64 (F := Ideal) x0 x1 x2 x3 x4 x5 x6 x7 x8 x9 x10 (ix2 r j)
      = val_main_v55 (F := Ideal) x0 x1 x2 x3 x4 x5 x6 x7 x8 x9 x10 (ix2 r (0 : Fin 1)) * val_main_v6 (F := Ideal) x0 x1 (ix2 r j) := by
  rw [val_main_v64_apply, val_main_v63_apply, eq_ix2_of_val (idx_main_v63 (ix2 r j)) r (0 : Fin 1) rfl rfl, src_again]
  rfl

/-! ## A node's row -/

/-- A node's row before normalization, the node's mean incoming message row taken as the reference computes it. -/
theorem pre_at (n : Fin 100000) (q : Fin 64) :
    val_main_v89 (F := Ideal) x0 x1 x2 x3 x4 x5 x6 x7 x8 x9 x10 x11 x12 x13 (ix2 n q)
      = nodePre (fun k => x0 (ix2 n k)) (fun k => val_main_v76 (F := Ideal) x0 x1 x2 x3 x4 x5 x6 x7 x8 x9 x10 (ix2 n k))
          (fun m k => x11 (ix2 m k)) (fun m k => x12 (ix2 m k)) (fun m => x13 (ix1 m)) q := by
  have e78 : val_main_v78 (F := Ideal) x0 x11 (ix2 n q) = ∑ k : Fin 64, x0 (ix2 n k) * x11 (ix2 q k) := by
    rw [val_main_v78_apply]
    refine Finset.sum_congr rfl fun k _ => ?_
    rw [val_main_v77_apply, eq_ix2_of_val (lidx_main_v78 (ix2 n q) k) n k rfl rfl,
      eq_ix2_of_val (idx_main_v77 (ridx_main_v78 (ix2 n q) k)) q k rfl rfl]
  have e80 : val_main_v80 (F := Ideal) x0 x1 x2 x3 x4 x5 x6 x7 x8 x9 x10 x12 (ix2 n q)
      = ∑ k : Fin 64, val_main_v76 (F := Ideal) x0 x1 x2 x3 x4 x5 x6 x7 x8 x9 x10 (ix2 n k) * x12 (ix2 q k) := by
    rw [val_main_v80_apply]
    refine Finset.sum_congr rfl fun k _ => ?_
    rw [val_main_v79_apply, eq_ix2_of_val (lidx_main_v80 (ix2 n q) k) n k rfl rfl,
      eq_ix2_of_val (idx_main_v79 (ridx_main_v80 (ix2 n q) k)) q k rfl rfl]
  have e83 : val_main_v83 (F := Ideal) x13 (ix2 n q) = x13 (ix1 q) := by
    rw [val_main_v83_apply, val_main_v82_apply, eq_ix1_of_val (idx_main_v82 (idx_main_v83 (ix2 n q))) q rfl]
  show leaky ((val_main_v78 (F := Ideal) x0 x11 (ix2 n q) + val_main_v80 (F := Ideal) x0 x1 x2 x3 x4 x5 x6 x7 x8 x9 x10 x12 (ix2 n q))
      + val_main_v83 (F := Ideal) x13 (ix2 n q)) = _
  rw [e78, e80, e83]
  rfl

/-- The divisor of node n's row: the square root of the row's sum of squares, or the floor if that is larger. -/
theorem norm_at (n : Fin 100000) :
    val_main_v92 (F := Ideal) x0 x1 x2 x3 x4 x5 x6 x7 x8 x9 x10 x11 x12 x13 (ix2 n (0 : Fin 1))
      = nodeNorm (nodePre (fun k => x0 (ix2 n k)) (fun k => val_main_v76 (F := Ideal) x0 x1 x2 x3 x4 x5 x6 x7 x8 x9 x10 (ix2 n k))
          (fun m k => x11 (ix2 m k)) (fun m k => x12 (ix2 m k)) (fun m => x13 (ix1 m))) := by
  have esum : val_main_call4_v2 (F := Ideal) x0 x1 x2 x3 x4 x5 x6 x7 x8 x9 x10 x11 x12 x13 (ix2 n (0 : Fin 1))
      = ∑ k : Fin 64, val_main_v89 (F := Ideal) x0 x1 x2 x3 x4 x5 x6 x7 x8 x9 x10 x11 x12 x13 (ix2 n k) * val_main_v89 (F := Ideal) x0 x1 x2 x3 x4 x5 x6 x7 x8 x9 x10 x11 x12 x13 (ix2 n k) := by
    rw [val_main_call4_v2_apply, eq_ix1_of_val (idx_main_call4_v2 (ix2 n (0 : Fin 1))) n rfl, val_main_call4_v1_apply]
    show Ideal.ofBits .f32 0x00000000#32 + _ = _
    rw [Ideal.ofBits_zero_f32, zero_add]
    refine Finset.sum_congr rfl fun k _ => ?_
    rw [eq_ix2_of_val (idx_main_call4_v1 (ix1 n) k) n k rfl rfl]
    rfl
  rw [val_main_v92_apply, val_main_v90_apply, esum]
  simp only [pre_at]
  rfl

/-- Entry (n, q) of the reference's result: node n's row, entry q, over the row's divisor. -/
theorem out_at (n : Fin 100000) (q : Fin 64) :
    val_main_v94 (F := Ideal) x0 x1 x2 x3 x4 x5 x6 x7 x8 x9 x10 x11 x12 x13 (ix2 n q)
      = nodeOut (fun k => x0 (ix2 n k)) (fun k => val_main_v76 (F := Ideal) x0 x1 x2 x3 x4 x5 x6 x7 x8 x9 x10 (ix2 n k))
          (fun m k => x11 (ix2 m k)) (fun m k => x12 (ix2 m k)) (fun m => x13 (ix1 m)) q := by
  have e93 : val_main_v93 (F := Ideal) x0 x1 x2 x3 x4 x5 x6 x7 x8 x9 x10 x11 x12 x13 (ix2 n q) = val_main_v92 (F := Ideal) x0 x1 x2 x3 x4 x5 x6 x7 x8 x9 x10 x11 x12 x13 (ix2 n (0 : Fin 1)) := by
    rw [val_main_v93_apply, eq_ix2_of_val (idx_main_v93 (ix2 n q)) n (0 : Fin 1) rfl rfl]
  rw [val_main_v94_apply, e93, norm_at, pre_at]
  rfl

end Cert.ReferenceIdeal.RefAt

end
-- ==== Proof.Bridge.lean ====
/-
  The idealized kernel's two results are the idealized reference's. Both sides gather the same rows; by the
  two modules that read each side at a row, the gate of edge r is `Sage.gate` of the same rows and the same matrices
  on both sides, so the gate arrays agree, hence the message arrays, hence (the same host operations applied to
  them) each node's mean incoming message, and a node's new row is `Sage.nodeOut` of the same two rows on both sides.
-/
import proofs.«163080_j17454747091496_1_alg».proof.Proof.Values
import proofs.«163080_j17454747091496_1_alg».proof.Proof.RefAt

noncomputable section

open Idealize.ShloMosaic Idealize.ShloMosaic.TcCoe Idealize.SL.Sem Idealize.ShloMosaic.ValueIdx

namespace Cert.Proof.Bridge

open Cert.KernelIdeal Cert.ReferenceIdeal.Read Cert.ReferenceIdeal.RefAt

variable (m : (ℓ : Loc Cert.KernelIdeal.nD Cert.KernelIdeal.τ Cert.KernelIdeal.sig) → Buf (Elt Ideal) ℓ) (c : Dev Cert.KernelIdeal.nD)

/-- The gathered source rows, and the gathered destination rows, are the reference's. -/
theorem src_eq : Arrays.srcRows m c = val_main_v6 (F := Ideal) (Arrays.a0 m c) (Arrays.a1 m c) := rfl
theorem dst_eq : Arrays.dstRows m c = val_main_v13 (F := Ideal) (Arrays.a0 m c) (Arrays.a2 m c) := rfl

/-- The gate arrays agree. -/
theorem gates_eq : Arrays.gates m c = val_main_v55 (F := Ideal) (Arrays.a0 m c) (Arrays.a1 m c) (Arrays.a2 m c) (Arrays.a3 m c) (Arrays.a4 m c) (Arrays.a5 m c) (Arrays.a6 m c) (Arrays.a7 m c) (Arrays.a8 m c) (Arrays.a9 m c) (Arrays.a10 m c) := by
  funext i
  obtain ⟨r, u, rfl⟩ : ∃ (r : Fin 800000) (u : Fin 1), i = ix2 r u := ⟨i 0, i 1, eq_ix2 i⟩
  obtain rfl : u = 0 := Subsingleton.elim _ _
  rw [gate_at, ← src_eq, ← dst_eq]
  rfl

/-- The message arrays agree. -/
theorem msgs_eq : Arrays.msgs m c = val_main_v64 (F := Ideal) (Arrays.a0 m c) (Arrays.a1 m c) (Arrays.a2 m c) (Arrays.a3 m c) (Arrays.a4 m c) (Arrays.a5 m c) (Arrays.a6 m c) (Arrays.a7 m c) (Arrays.a8 m c) (Arrays.a9 m c) (Arrays.a10 m c) := by
  funext i
  obtain ⟨r, q, rfl⟩ : ∃ (r : Fin 800000) (q : Fin 64), i = ix2 r q := ⟨i 0, i 1, eq_ix2 i⟩
  rw [msg_at, ← gates_eq, ← src_eq]
  rfl

/-- Each node's mean incoming message agrees. -/
theorem neigh_eq : Arrays.neigh m c = val_main_v76 (F := Ideal) (Arrays.a0 m c) (Arrays.a1 m c) (Arrays.a2 m c) (Arrays.a3 m c) (Arrays.a4 m c) (Arrays.a5 m c) (Arrays.a6 m c) (Arrays.a7 m c) (Arrays.a8 m c) (Arrays.a9 m c) (Arrays.a10 m c) := by
  unfold Arrays.neigh
  rw [msgs_eq]
  rfl

/-- The node arrays agree. -/
theorem nodes_eq : Arrays.nodes m c = val_main_v94 (F := Ideal) (Arrays.a0 m c) (Arrays.a1 m c) (Arrays.a2 m c) (Arrays.a3 m c) (Arrays.a4 m c) (Arrays.a5 m c) (Arrays.a6 m c) (Arrays.a7 m c) (Arrays.a8 m c) (Arrays.a9 m c) (Arrays.a10 m c) (Arrays.a11 m c) (Arrays.a12 m c) (Arrays.a13 m c) := by
  funext i
  obtain ⟨n, q, rfl⟩ : ∃ (n : Fin 100000) (q : Fin 64), i = ix2 n q := ⟨i 0, i 1, eq_ix2 i⟩
  rw [out_at, ← neigh_eq]
  rfl

end Cert.Proof.Bridge

end
-- ==== Proof.lean ====
/-
  The kernel passes messages on a graph of 100000 nodes and 800000 edges: for each edge a small network of three
  dense layers with the leaky rectifier and a logistic output computes a gate from the difference of the two endpoint
  rows; the edge's message is the gate times the source row; each node takes the mean of its incoming messages,
  adds its own row and the mean through two matrices and a bias, applies the leaky rectifier and divides the row by
  its Euclidean norm (floored). The kernel does the per-edge network and the per-node transform in two blocked
  kernel regions (3200 edges, 4000 nodes a block) with the gathers and the scatter-add as host operations between
  them; the reference does all of it as whole-array host operations. On the extended reals the two compute the same
  function, with no algebra beyond reading a block row by row: a matrix product into a zero accumulator is the same
  sum as the reference's contraction, a change of float format is the identity, and the kernel's logistic operation
  is the reference's  1 / (1 + e^(−x)).

  The three frames: the word-level kernel's and the idealized kernel's are the generated frame certificates of their
  two-region programs; the reference's is its generated run with the results dropped. The idealization rewrote no
  operation, so `preserves` is trivial. The value claim: the idealized kernel's run with its two results named
  (module RunNamed), each result as a function of the arguments (Values, over Blocks, EdgeAt and NodeAt), and that
  these are the reference's results (Bridge, over RefAt and the reference's generated run and stage-by-stage reading).
-/
import proofs.«163080_j17454747091496_1_alg».proof.Defs
import proofs.«163080_j17454747091496_1_alg».proof.Proof.Gen.Kernel
import proofs.«163080_j17454747091496_1_alg».proof.Proof.Gen.Kernel.Skeleton
import proofs.«163080_j17454747091496_1_alg».proof.Proof.Gen.Kernel.Launch
import proofs.«163080_j17454747091496_1_alg».proof.Proof.Gen.Kernel.Points
import proofs.«163080_j17454747091496_1_alg».proof.Proof.Gen.Kernel.Frame
import proofs.«163080_j17454747091496_1_alg».proof.Proof.Gen.KernelIdeal
import proofs.«163080_j17454747091496_1_alg».proof.Proof.Gen.KernelIdeal.Skeleton
import proofs.«163080_j17454747091496_1_alg».proof.Proof.Gen.KernelIdeal.Launch
import proofs.«163080_j17454747091496_1_alg».proof.Proof.Gen.KernelIdeal.Points
import proofs.«163080_j17454747091496_1_alg».proof.Proof.Gen.KernelIdeal.Frame
import proofs.«163080_j17454747091496_1_alg».proof.Proof.Gen.ReferenceIdeal
import proofs.«163080_j17454747091496_1_alg».proof.Proof.Gen.Pre_finite_inputs
import proofs.«163080_j17454747091496_1_alg».proof.Proof.Gen.ReferenceIdeal.Run
import proofs.«163080_j17454747091496_1_alg».proof.Proof.Gen.ReferenceIdeal.Read
import proofs.«163080_j17454747091496_1_alg».proof.Proof.RunNamed
import proofs.«163080_j17454747091496_1_alg».proof.Proof.Values
import proofs.«163080_j17454747091496_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- Both idealized programs, from memories that agree on the arguments, end with the node array and the gate
    array that `Cert.KernelIdeal.Arrays` names. -/
theorem algebraic : Cert.algebraic_KernelIdeal_ReferenceIdeal := by
  intro m ρ m' ρ' _ hagree
  refine ⟨fun c => Cert.KernelIdeal.Arrays.nodes m c, fun c => Cert.KernelIdeal.Arrays.gates m c, ?_, ?_⟩
  · exact (θ_run Cert.KernelIdeal.defs _ _).mono
      (fun r h c => ⟨(h c).1.trans (Cert.KernelIdeal.Arrays.W4_nodes m ρ c), (h c).2.1.trans (Cert.KernelIdeal.Arrays.W4_gates m ρ c), (h c).2.2⟩)
      (Cert.KernelIdeal.Named.run m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9, h10, h11, h12, h13⟩ := hagree c
      rw [Cert.ReferenceIdeal.Read.val_main_v94_eq, h0, h1, h2, h3, h4, h5, h6, h7, h8, h9, h10, h11, h12, h13]
      exact (Cert.Proof.Bridge.nodes_eq m c).symm
    · obtain ⟨h0, h1, h2, h3, h4, h5, h6, h7, h8, h9, h10, -⟩ := hagree c
      rw [Cert.ReferenceIdeal.Read.val_main_v55_eq, h0, h1, h2, h3, h4, h5, h6, h7, h8, h9, h10]
      exact (Cert.Proof.Bridge.gates_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
